-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x1600000 32 := broadcastInDim S2x1600000 ![] bcast_S_S2x1600000 main_c_14
  let main_v40 : IVec S2x1600000 1 := cmpi .sge main_arg1 main_v39
  let main_c_15 : IVec S_ 1 := constantI S_ 1 1#1
  let main_v41 : IVec S_ 1 := (fun x v => Host.reduce IntOp.andi x v reducesTo_S2x1600000_S_d0_1 h_S_) main_v40 main_c_15
  let main_v42 : IVec S_ 1 := andi main_v38 main_v41
  let main_c_16 : IVec S_ 32 := constantI S_ 32 100000#32
  let main_v43 : IVec S2x1600000 32 := broadcastInDim S2x1600000 ![] bcast_S_S2x1600000 main_c_16
  let main_v44 : IVec S2x1600000 1 := cmpi .slt main_arg1 main_v43
  let main_c_17 : IVec S_ 1 := constantI S_ 1 1#1
  let main_v45 : IVec S_ 1 := (fun x v => Host.reduce IntOp.andi x v reducesTo_S2x1600000_S_d0_1 h_S_) main_v44 main_c_17
  let main_v46 : IVec S_ 1 := andi main_v42 main_v45
  main_v46

def fn_part1 {F : FTy → Type} [FloatOps F] (main_arg1 : IVec S2x1600000 32) (main_arg5 : FVec F S160x64 .f32) (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S160x64 .f32 := Host.absf main_arg5
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1600000 32) (main_arg2 : FVec F S1600000x32 .f32) (main_arg3 : FVec F S160x64 .f32) (main_arg4 : FVec F S64 .f32) (main_arg5 : FVec F S160x64 .f32) (main_arg6 : FVec F S64 .f32) (main_arg7 : FVec F S64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S8000x64 : Shape := ⟨2, ![8000, 64]⟩
abbrev S8000x32 : Shape := ⟨2, ![8000, 32]⟩
abbrev S8000x160 : Shape := ⟨2, ![8000, 160]⟩
abbrev S10000x64 : Shape := ⟨2, ![10000, 64]⟩

abbrev nBuf : Space → Nat
  | .hbm => 85
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S160x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1, .i32⟩
  | .hbm, ⟨45, _⟩ => ⟨S_, .i32⟩
  | .hbm, ⟨46, _⟩ => ⟨S1600000x1, .i32⟩
  | .hbm, ⟨47, _⟩ => ⟨S1600000x1, .i1⟩
  | .hbm, ⟨48, _⟩ => ⟨S1x1, .i32⟩
  | .hbm, ⟨49, _⟩ => ⟨S1600000x1, .i32⟩
  | .hbm, ⟨50, _⟩ => ⟨S1600000x1, .i1⟩
  | .hbm, ⟨51, _⟩ => ⟨S1600000x1, .i1⟩
  | .hbm, ⟨52, _⟩ => ⟨S_, .i1⟩
  | .hbm, ⟨53, _⟩ => ⟨S1600000, .i1⟩
  | .hbm, ⟨54, _⟩ => ⟨S1600000x64, .f32⟩
  | .hbm, ⟨55, _⟩ => ⟨S1600000x64, .i1⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S1x64, .f32⟩
  | .hbm, ⟨60, _⟩ => ⟨S1x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S160x64, .f32⟩
  | .local _ .vmem, ⟨7, _⟩ => ⟨S1x64, .f32⟩
  | .local _ .vmem, ⟨8, _⟩ => ⟨S160x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_cst : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_cst_1 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_cst_2 : Ref sig .tc := ⟨.hbm, 75, rfl⟩
abbrev main_v19 : Ref sig .tc := ⟨.hbm, 76, rfl⟩
abbrev main_cst_3 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  concatenates_S8000x64_S8000x64_S8000x32_S8000x160_d1 : Shape.Concatenates [S8000x64, S8000x64, S8000x32] S8000x160 1
  bitsLt_bf16_f32 : FTy.bits .bf16 < FTy.bits .f32
  inb_S160x64_S160x64_0_0 : ∀ a, (![0, 0] : Fin 2 → Nat) a + S160x64.size a ≤ S160x64.size a
  h_S160x64 : 0 < S160x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S8000x160_S160x64_S8000x64_1_0_0_1_n_n_wf : DotDims.WF S8000x160 S160x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x64.size a ≤ S160x64.size a
  hwx0_5 : ∀ i : grid0.Coords, EltTy.bits .f32 = 32 ∨ (Rect.block (s := S160x64) S160x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .f32 = 32 ∨ (Rect.block (s := S1600000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x160_S160x64_S8000x64_1_0_0_1_n_n : DotDims S8000x160 S160x64 S8000x64 where
  lhsContracting := [1]
  rhsContracting := [0]
  lhsNonContracting := [0]
  rhsNonContracting := [1]
  lhsBatch := []
  rhsBatch := []
  wf := dot_S8000x160_S160x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S160x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S160x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x160, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .i1⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x160_S160x64_S1600000x64_1_0_0_1_n_n_wf : DotDims.WF S1600000x160 S160x64 S1600000x64 [1] [0] [0] [1] [] []
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The scalar mathematics of the two programs, on the extended reals.

  Each edge `e` carries the 160 numbers `z e k`: the 64 features of its source node, the 64 of its target node and
  its own 32.  Both programs form the two affine maps `zf = Σ_k z e k · Wf k f + bf f` and
  `zs = Σ_k z e k · Ws k f + bs f` and the message entry `gate zf zs = σ(zf) · softplus(zs)`, where
  `σ(a) = 1 / (1 + e^(-a))` and `softplus(b) = max(b, 0) + log(1 + e^(-|b|))`.  After the messages are summed
  per source node, each output entry is `x + ((msg - mean) · rsqrt(var + ε) · γ + β)`.

  The kernel spells `σ` as one operation and the negation inside softplus as `0 - |b|`; the reference spells `σ`
  as a quotient with the literal `1.0` and negates.  Both guard softplus by the test `d ≠ d` on `d = b - 0`, which
  no extended real passes.  The lemmas below say each spelling is `gate`.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The logistic function `1 / (1 + e^(-a))`. -/
def sigm (a : EReal) : EReal := Ideal.div 1 (1 + Ideal.exp (-a))

/-- Softplus in its overflow-free form `max(b, 0) + log(1 + e^(-|b - 0|))`, with `|d| = max d (-d)`. -/
def splus (b : EReal) : EReal := max b 0 + Ideal.log1p (Ideal.exp (-(max (b - 0) (-(b - 0)))))

/-- One message entry from its two pre-activations. -/
def gate (a b : EReal) : EReal := sigm a * splus b

/-- The variance offset, the single-precision word nearest `1e-5`, as both programs carry it. -/
def eps : EReal := Ideal.ofBits .f32 0x3727C5AC#32

/-- One output entry: the node feature plus its normalised, scaled and shifted message. -/
def bn (x msg mean var g b : EReal) : EReal := x + ((msg - mean) * Ideal.rsqrt (var + eps) * g + b)

/-- No extended real differs from itself, so a test `d ≠ d` selects its second branch. -/
theorem select_ne_self {α : Type} (p : CmpFPredicate) (hp : p = .one ∨ p = .une) (d : EReal) (u v : α) :
    Scalar.select (Ideal.cmp p d d) u v = v := by
  have h : Ideal.cmp p d d = 0#1 := by
    rcases hp with rfl | rfl <;> simp [Ideal.cmp]
  rw [h]; exact if_neg (by decide)

/-- The kernel's spelling of a message entry: the logistic as one operation, the guard, `0 - |d|`. -/
theorem gate_kernel (a b : EReal) :
    Ideal.logistic a *
      Scalar.select (Ideal.cmp .one (b - Ideal.ofBits .f32 0x00000000#32) (b - Ideal.ofBits .f32 0x00000000#32))
        (b + Ideal.ofBits .f32 0x00000000#32)
        (max b (Ideal.ofBits .f32 0x00000000#32) +
          Ideal.log1p (Ideal.exp (Ideal.ofBits .f32 0x00000000#32 -
            max (b - Ideal.ofBits .f32 0x00000000#32) (-(b - Ideal.ofBits .f32 0x00000000#32)))))
      = gate a b := by
  rw [select_ne_self .one (Or.inl rfl), Ideal.ofBits_zero_f32, zero_sub]
  rfl

/-- The reference's spelling: the quotient with the literal `1.0`, the guard, the negation. -/
theorem gate_reference (a b : EReal) :
    Ideal.div (Ideal.ofBits .f32 0x3F800000#32) (Ideal.ofBits .f32 0x3F800000#32 + Ideal.exp (-a)) *
      Scalar.select (Ideal.cmp .une (b - Ideal.ofBits .f32 0x00000000#32) (b - Ideal.ofBits .f32 0x00000000#32))
        (b + Ideal.ofBits .f32 0x00000000#32)
        (max b (Ideal.ofBits .f32 0x00000000#32) +
          Ideal.log1p (Ideal.exp (-(max (b - Ideal.ofBits .f32 0x00000000#32) (-(b - Ideal.ofBits .f32 0x00000000#32))))))
      = gate a b := by
  rw [select_ne_self .une (Or.inr rfl), Ideal.ofBits_zero_f32, Ideal.ofBits_one_f32]
  rfl

/-! ## The two arrays the program computes, index by index

Stated for any number `n` of rows, so that the same text reads a block of rows and the whole array. -/

open ValueIdx

/-- Entry `k` of edge `e`'s joined feature row: the 64 features of its source node, then the 64 of its target
    node, then its own 32. -/
def zrow {n : Nat} (xi xj : (⟨2, ![n, 64]⟩ : Shape).Idx → EReal) (ea : (⟨2, ![n, 32]⟩ : Shape).Idx → EReal)
    (e : Fin n) (k : Fin 160) : EReal :=
  if h : k.val < 64 then xi (ix2 e ⟨k.val, h⟩)
  else if h2 : k.val < 128 then xj (ix2 e ⟨k.val - 64, by omega⟩)
  else ea (ix2 e ⟨k.val - 128, by omega⟩)

/-- The message array: entry `(e, f)` is `gate` of the two affine maps of edge `e`'s joined row, the biases held as
    one-row arrays. -/
def Hspec {n : Nat} (xi xj : (⟨2, ![n, 64]⟩ : Shape).Idx → EReal) (ea : (⟨2, ![n, 32]⟩ : Shape).Idx → EReal)
    (wf : (⟨2, ![160, 64]⟩ : Shape).Idx → EReal) (bf : (⟨2, ![1, 64]⟩ : Shape).Idx → EReal)
    (ws : (⟨2, ![160, 64]⟩ : Shape).Idx → EReal) (bs : (⟨2, ![1, 64]⟩ : Shape).Idx → EReal) :
    (⟨2, ![n, 64]⟩ : Shape).Idx → EReal := fun i =>
  gate (∑ k : Fin 160, zrow xi xj ea (i 0) k * wf (ix2 k (i 1)) + bf (ix2 0 (i 1)))
    (∑ k : Fin 160, zrow xi xj ea (i 0) k * ws (ix2 k (i 1)) + bs (ix2 0 (i 1)))

/-- The output array: entry `(v, f)` is `bn` of the node feature, the summed message and column `f`'s statistics,
    scale and shift, each of the four held as a one-row array. -/
def OUTspec {n : Nat} (msg node : (⟨2, ![n, 64]⟩ : Shape).Idx → EReal)
    (mean var gam bet : (⟨2, ![1, 64]⟩ : Shape).Idx → EReal) : (⟨2, ![n, 64]⟩ : Shape).Idx → EReal := fun i =>
  bn (node i) (msg i) (mean (ix2 0 (i 1))) (var (ix2 0 (i 1))) (gam (ix2 0 (i 1))) (bet (ix2 0 (i 1)))

/-- A block of rows of the message array is the message array of the blocks: if each row `p` of the three
    row-indexed operands is row `off p` of a taller one, entry `(p, q)` of the one is entry `(off p, q)` of the other. -/
theorem Hspec_rows {n n' : Nat} (off : Fin n → Fin n')
    (xi xj : (⟨2, ![n, 64]⟩ : Shape).Idx → EReal) (ea : (⟨2, ![n, 32]⟩ : Shape).Idx → EReal)
    (xi' xj' : (⟨2, ![n', 64]⟩ : Shape).Idx → EReal) (ea' : (⟨2, ![n', 32]⟩ : Shape).Idx → EReal)
    (wf : (⟨2, ![160, 64]⟩ : Shape).Idx → EReal) (bf : (⟨2, ![1, 64]⟩ : Shape).Idx → EReal)
    (ws : (⟨2, ![160, 64]⟩ : Shape).Idx → EReal) (bs : (⟨2, ![1, 64]⟩ : Shape).Idx → EReal)
    (hi : ∀ p q, xi (ix2 p q) = xi' (ix2 (off p) q)) (hj : ∀ p q, xj (ix2 p q) = xj' (ix2 (off p) q))
    (he : ∀ p q, ea (ix2 p q) = ea' (ix2 (off p) q)) (p : Fin n) (q : Fin 64) :
    Hspec xi xj ea wf bf ws bs (ix2 p q) = Hspec xi' xj' ea' wf bf ws bs (ix2 (off p) q) := by
  have hz : ∀ k, zrow xi xj ea p k = zrow xi' xj' ea' (off p) k := fun k => by
    unfold zrow
    split
    · exact hi _ _
    · split
      · exact hj _ _
      · exact he _ _
  show gate (∑ k : Fin 160, zrow xi xj ea p k * wf (ix2 k q) + bf (ix2 0 q))
      (∑ k : Fin 160, zrow xi xj ea p k * ws (ix2 k q) + bs (ix2 0 q))
    = gate (∑ k : Fin 160, zrow xi' xj' ea' (off p) k * wf (ix2 k q) + bf (ix2 0 q))
      (∑ k : Fin 160, zrow xi' xj' ea' (off p) k * ws (ix2 k q) + bs (ix2 0 q))
  simp only [hz]

/-- Likewise a block of rows of the output array. -/
theorem OUTspec_rows {n n' : Nat} (off : Fin n → Fin n')
    (msg node : (⟨2, ![n, 64]⟩ : Shape).Idx → EReal) (msg' node' : (⟨2, ![n', 64]⟩ : Shape).Idx → EReal)
    (mean var gam bet : (⟨2, ![1, 64]⟩ : Shape).Idx → EReal)
    (hm : ∀ p q, msg (ix2 p q) = msg' (ix2 (off p) q)) (hn : ∀ p q, node (ix2 p q) = node' (ix2 (off p) q))
    (p : Fin n) (q : Fin 64) :
    OUTspec msg node mean var gam bet (ix2 p q) = OUTspec msg' node' mean var gam bet (ix2 (off p) q) := by
  show bn (node (ix2 p q)) (msg (ix2 p q)) (mean (ix2 0 q)) (var (ix2 0 q)) (gam (ix2 0 q)) (bet (ix2 0 q))
    = bn (node' (ix2 (off p) q)) (msg' (ix2 (off p) q)) (mean (ix2 0 q)) (var (ix2 0 q)) (gam (ix2 0 q)) (bet (ix2 0 q))
  rw [hm, hn]

end Cert.Spec

end
-- ==== Proof.LibJoin3.lean ====
/-
  Three arrays of `n` rows with 64, 64 and 32 columns joined side by side into one of 160 columns, read at an entry:
  column `k` of the join is column `k` of the first for `k < 64`, column `k - 64` of the second for `64 ≤ k < 128`,
  and column `k - 128` of the third otherwise.
-/
import Idealize.ShloMosaic.Lib.ValueIdx
import Idealize.ShloMosaic.Lib.Pipeline.Value

namespace Cert.Lib

open Idealize.ShloMosaic Idealize.ShloMosaic.ValueIdx

/-- A side-by-side join of three row blocks (64, 64 and 32 columns) read at row `p`, column `k`: the entry of the
    block whose column span holds `k`, at the column counted from that block's first. Any element type, any number
    of rows. -/
theorem join3_apply {α : Type} {n : Nat} (x1 x2 : (⟨2, ![n, 64]⟩ : Shape).Idx → α) (x3 : (⟨2, ![n, 32]⟩ : Shape).Idx → α)
    (h : Shape.Concatenates
      (([⟨⟨2, ![n, 64]⟩, x1⟩, ⟨⟨2, ![n, 64]⟩, x2⟩, ⟨⟨2, ![n, 32]⟩, x3⟩] : List ((s : Shape) × (s.Idx → α))).map (·.1))
      (⟨2, ![n, 160]⟩ : Shape) 1)
    (p : Fin n) (k : Fin 160) :
    concatenate (⟨2, ![n, 160]⟩ : Shape) 1 [⟨⟨2, ![n, 64]⟩, x1⟩, ⟨⟨2, ![n, 64]⟩, x2⟩, ⟨⟨2, ![n, 32]⟩, x3⟩] h (ix2 p k)
      = if hk : k.val < 64 then x1 (ix2 p ⟨k.val, hk⟩)
        else if hk2 : k.val < 128 then x2 (ix2 p ⟨k.val - 64, by omega⟩)
        else x3 (ix2 p ⟨k.val - 128, by omega⟩) := by
  -- the two checks shared by the three blocks: off the join axis the coordinates agree, and on it the column
  -- counted from the block's first plus the block's offset is the column of the join
  by_cases hk : k.val < 64
  · rw [dif_pos hk]
    refine concatenate_apply_piece (t := ⟨2, ![n, 160]⟩) 1 _ h (ix2 p k) 0 (by simp) ⟨2, ![n, 64]⟩ x1 rfl rfl 0
      (by simp) (ix2 p ⟨k.val, hk⟩) ?_ ?_
    · intro b hb
      match b, hb with
      | ⟨0, _⟩, _ => rfl
      | ⟨1, _⟩, hb => exact absurd rfl hb
    · show 0 + k.val = k.val
      omega
  · rw [dif_neg hk]
    by_cases hk2 : k.val < 128
    · rw [dif_pos hk2]
      refine concatenate_apply_piece (t := ⟨2, ![n, 160]⟩) 1 _ h (ix2 p k) 1 (by simp) ⟨2, ![n, 64]⟩ x2 rfl rfl 64
        (by simp) (ix2 p ⟨k.val - 64, by omega⟩) ?_ ?_
      · intro b hb
        match b, hb with
        | ⟨0, _⟩, _ => rfl
        | ⟨1, _⟩, hb => exact absurd rfl hb
      · show 64 + (k.val - 64) = k.val
        omega
    · rw [dif_neg hk2]
      refine concatenate_apply_piece (t := ⟨2, ![n, 160]⟩) 1 _ h (ix2 p k) 2 (by simp) ⟨2, ![n, 32]⟩ x3 rfl rfl 128
        (by simp) (ix2 p ⟨k.val - 128, by omega⟩) ?_ ?_
      · intro b hb
        match b, hb with
        | ⟨0, _⟩, _ => rfl
        | ⟨1, _⟩, hb => exact absurd rfl hb
      · show 128 + (k.val - 128) = k.val
        omega

end Cert.Lib
-- ==== Proof.K0Pay.lean ====
/-
  Region 0's body at one entry.  A grid point holds 8000 edges: their source rows, target rows and edge features,
  and the two whole weight matrices with their one-row biases.  The body joins the three row blocks side by side,
  multiplies the joined block by each weight matrix (a change of float format is the identity on extended reals, and
  a product into a zero accumulator is the plain sum over the 160 joined features), adds the bias row to every row,
  and multiplies the logistic of the first result by the softplus of the second.  Entry `(p, q)` of what it stores is
  therefore the message entry of the block's row `p`.
-/
import proofs.«419440_j11536282157551_1_alg».proof.Proof.Gen.KernelIdeal.Skeleton
import proofs.«419440_j11536282157551_1_alg».proof.Proof.Spec
import proofs.«419440_j11536282157551_1_alg».proof.Proof.LibJoin3
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open scoped BigOperators

/-! ## The product at an entry

The contraction has one axis on each side: the joined block's columns against the weight matrix's rows.  At output
entry `(p, q)` and contraction position `k` the product reads the block at `(p, k)` and the matrix at `(k, q)`. -/

/-- The joined block's index read at output entry `i` and contraction position `q` has `i`'s row … -/
theorem lhs_k0_0 (i : S8000x64.Idx) (q : dot_S8000x160_S160x64_S8000x64_1_0_0_1_n_n.contr.Idx) :
    (dot_S8000x160_S160x64_S8000x64_1_0_0_1_n_n.lhsIdx i q 0).val = (i 0).val := by
  unfold DotDims.lhsIdx
  rw [dif_neg (show ¬(0 : Fin S8000x160.rank) ∈ dot_S8000x160_S160x64_S8000x64_1_0_0_1_n_n.lhsBatch by decide), dif_pos (show (0 : Fin S8000x160.rank) ∈ dot_S8000x160_S160x64_S8000x64_1_0_0_1_n_n.lhsNonContracting by decide)]
  rfl
/-- … and the contraction position as its column; -/
theorem lhs_k0_1 (i : S8000x64.Idx) (q : dot_S8000x160_S160x64_S8000x64_1_0_0_1_n_n.contr.Idx) :
    (dot_S8000x160_S160x64_S8000x64_1_0_0_1_n_n.lhsIdx i q 1).val = (q ⟨0, by decide⟩).val :=
  dot_S8000x160_S160x64_S8000x64_1_0_0_1_n_n.lhsIdx_val_of_single rfl i q
/-- the weight matrix's index read there has the contraction position as its row … -/
theorem rhs_k0_0 (i : S8000x64.Idx) (q : dot_S8000x160_S160x64_S8000x64_1_0_0_1_n_n.contr.Idx) :
    (dot_S8000x160_S160x64_S8000x64_1_0_0_1_n_n.rhsIdx i q 0).val = (q ⟨0, by decide⟩).val :=
  dot_S8000x160_S160x64_S8000x64_1_0_0_1_n_n.rhsIdx_val_of_single rfl i q
/-- … and `i`'s column. -/
theorem rhs_k0_1 (i : S8000x64.Idx) (q : dot_S8000x160_S160x64_S8000x64_1_0_0_1_n_n.contr.Idx) :
    (dot_S8000x160_S160x64_S8000x64_1_0_0_1_n_n.rhsIdx i q 1).val = (i 1).val := by
  unfold DotDims.rhsIdx
  rw [dif_neg (show ¬(1 : Fin S160x64.rank) ∈ dot_S8000x160_S160x64_S8000x64_1_0_0_1_n_n.rhsBatch by decide), dif_pos (show (1 : Fin S160x64.rank) ∈ dot_S8000x160_S160x64_S8000x64_1_0_0_1_n_n.rhsNonContracting by decide)]
  rfl

/-- A product of a `8000 × 160` block with a `160 × 64` matrix into the zero accumulator, read at `(p, q)`: the sum over
    the 160 joined features of row `p`'s entry times column `q`'s. -/
theorem mm_apply (z : FVec Ideal S8000x160 .bf16) (w : FVec Ideal S160x64 .bf16) (p : Fin 8000) (q : Fin 64) :
    matmul dot_S8000x160_S160x64_S8000x64_1_0_0_1_n_n none z w (constant (F := Ideal) S8000x64 .f32 0x00000000#32) (ix2 p q)
      = ∑ k : Fin 160, z (ix2 p k) * w (ix2 k q) := by
  show FloatOps.matmul dot_S8000x160_S160x64_S8000x64_1_0_0_1_n_n none z w (constant (F := Ideal) S8000x64 .f32 0x00000000#32) (ix2 p q) = _
  rw [Ideal.matmul_constant_zero_apply, ← Equiv.sum_comp (ValueIdx.contrEquiv1 dot_S8000x160_S160x64_S8000x64_1_0_0_1_n_n 160 rfl rfl).symm]
  refine Finset.sum_congr rfl fun k _ => ?_
  have hk := ValueIdx.contrEquiv1_symm_val dot_S8000x160_S160x64_S8000x64_1_0_0_1_n_n 160 rfl rfl k
  have el : dot_S8000x160_S160x64_S8000x64_1_0_0_1_n_n.lhsIdx (ix2 p q) ((ValueIdx.contrEquiv1 dot_S8000x160_S160x64_S8000x64_1_0_0_1_n_n 160 rfl rfl).symm k) = ix2 p k := funext fun a => Fin.ext (by
    match a with
    | ⟨0, _⟩ => exact lhs_k0_0 _ _
    | ⟨1, _⟩ => exact (lhs_k0_1 _ _).trans hk)
  have er : dot_S8000x160_S160x64_S8000x64_1_0_0_1_n_n.rhsIdx (ix2 p q) ((ValueIdx.contrEquiv1 dot_S8000x160_S160x64_S8000x64_1_0_0_1_n_n 160 rfl rfl).symm k) = ix2 k q := funext fun a => Fin.ext (by
    match a with
    | ⟨0, _⟩ => exact (rhs_k0_0 _ _).trans hk
    | ⟨1, _⟩ => exact rhs_k0_1 _ _)
  rw [el, er]

/-! ## From the two sums to the message entry -/

/-- The kernel's spelling of one message entry from its two pre-activations: the logistic of the first times the
    guarded softplus of the second. -/
def ktail (a b : EReal) : EReal :=
  Ideal.logistic a *
    Scalar.select (Ideal.cmp .one (b - Ideal.ofBits .f32 0x00000000#32) (b - Ideal.ofBits .f32 0x00000000#32))
      (b + Ideal.ofBits .f32 0x00000000#32)
      (max b (Ideal.ofBits .f32 0x00000000#32) +
        Ideal.log1p (Ideal.exp (Ideal.ofBits .f32 0x00000000#32 -
          max (b - Ideal.ofBits .f32 0x00000000#32) (-(b - Ideal.ofBits .f32 0x00000000#32)))))

/-- One pre-activation array: the joined block times a weight matrix, plus the bias row on every row. -/
def preact (x0 x1 : Vec Ideal S8000x64 .f32) (x2 : Vec Ideal S8000x32 .f32) (w : Vec Ideal S160x64 .f32)
    (b : Vec Ideal S1x64 .f32) : FVec Ideal S8000x64 .f32 :=
  addf
    (matmul dot_S8000x160_S160x64_S8000x64_1_0_0_1_n_n none
      (truncf .bf16
        (concatenate S8000x160 1
          [⟨S8000x64, shapeCast S8000x64 x0 Facts₀.shapeCasts_S8000x64_S8000x64⟩,
           ⟨S8000x64, shapeCast S8000x64 x1 Facts₀.shapeCasts_S8000x64_S8000x64⟩, ⟨S8000x32, x2⟩]
          Facts₀.concatenates_S8000x64_S8000x64_S8000x32_S8000x160_d1 : FVec Ideal S8000x160 .f32)
        Facts₀.bitsLt_bf16_f32)
      (truncf .bf16 (w : FVec Ideal S160x64 .f32) Facts₀.bitsLt_bf16_f32)
      (constant (F := Ideal) S8000x64 .f32 0x00000000#32))
    (broadcastTo S8000x64 (shapeCast S1x64 b Facts₀.shapeCasts_S1x64_S1x64) Facts₀.broadcasts_S1x64_S8000x64)

/-- The body's stored value at an entry is the kernel's spelling of the two pre-activations there: every operation
    after the two sums acts entry by entry. -/
theorem k0_pay1_tail (x0 x1 : Vec Ideal S8000x64 .f32) (x2 : Vec Ideal S8000x32 .f32) (wf ws : Vec Ideal S160x64 .f32)
    (bf bs : Vec Ideal S1x64 .f32) (i : S8000x64.Idx) :
    k0_pay1 (F := Ideal) x0 x1 x2 wf ws bf bs i = ktail (preact x0 x1 x2 wf bf i) (preact x0 x1 x2 ws bs i) := rfl

/-- A pre-activation at an entry: the sum over the 160 joined features of row `p`'s joined entry times the weight,
    plus the bias of column `q`. -/
theorem preact_apply (x0 x1 : Vec Ideal S8000x64 .f32) (x2 : Vec Ideal S8000x32 .f32) (w : Vec Ideal S160x64 .f32)
    (b : Vec Ideal S1x64 .f32) (p : Fin 8000) (q : Fin 64) :
    preact x0 x1 x2 w b (ix2 p q) = ∑ k : Fin 160, zrow x0 x1 x2 p k * w (ix2 k q) + b (ix2 0 q) := by
  unfold preact
  rw [shapeCast_self, shapeCast_self, shapeCast_self, addf_apply, mm_apply, broadcastTo_1b_ab_apply]
  refine congrArg (· + b (ix2 0 q)) (Finset.sum_congr rfl fun k _ => ?_)
  rw [truncf_apply, truncf_apply, Cert.Lib.join3_apply]
  rfl

/-- The value region 0's body stores, as a function of the blocks it loads, is the message array of those blocks. -/
theorem k0_pay1_eq (x0 x1 : Vec Ideal S8000x64 .f32) (x2 : Vec Ideal S8000x32 .f32) (wf ws : Vec Ideal S160x64 .f32)
    (bf bs : Vec Ideal S1x64 .f32) :
    k0_pay1 (F := Ideal) x0 x1 x2 wf ws bf bs = Hspec (n := 8000) x0 x1 x2 wf bf ws bs := by
  funext i
  obtain ⟨p, q, rfl⟩ : ∃ (p : Fin 8000) (q : Fin 64), i = ix2 p q := ⟨i 0, i 1, eq_ix2 i⟩
  rw [k0_pay1_tail, preact_apply, preact_apply]
  exact gate_kernel _ _

end Cert.KernelIdeal.Val

end
-- ==== Proof.Blocks0.lean ====
/-
  From region 0's blocks to its output array.  Grid point `t` reads rows `8000·t … 8000·t + 7999` of the three
  edge-indexed arrays and the whole weight and bias arrays, and writes back rows `8000·t …` of the output.  What it
  writes is the message array of its blocks (the body's reading), which is the same rows of the message array of the
  whole operands; the 200 row blocks tile the 1600000 rows, so the output array ends as the message array.
-/
import proofs.«419440_j11536282157551_1_alg».proof.Proof.Gen.KernelIdeal.Frame
import proofs.«419440_j11536282157551_1_alg».proof.Proof.K0Pay
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Blocks0

/-- The zero offsets of a whole-buffer access, as the constant function. -/
theorem zero_off0 : (![0, 0] : Fin 2 → Nat) = fun _ => 0 := funext fun a => by fin_cases a <;> rfl

/-- The printed index maps over the 200 grid points: the three edge-indexed inputs and the output sit at row block
    t, column block 0; the weights and the biases at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What the body leaves in the output's buffer is the message array of the seven blocks. -/
theorem out0_7_eq (x0 x1 : Vec Ideal S8000x64 .f32) (x2 : Vec Ideal S8000x32 .f32) (x3 : Vec Ideal S160x64 .f32)
    (x4 : Vec Ideal S1x64 .f32) (x5 : Vec Ideal S160x64 .f32) (x6 : Vec Ideal S1x64 .f32) :
    out0_7 (F := Ideal) x0 x1 x2 x3 x4 x5 x6 = Hspec (n := 8000) x0 x1 x2 x3 x4 x5 x6 := by
  unfold out0_7
  rw [View.canon_unit_zero zero_off0]
  simp only [View.ld_unit_zero (S := S8000x64) zero_off0, View.ld_unit_zero (S := S8000x32) zero_off0,
    View.ld_unit_zero (S := S160x64) zero_off0, View.ld_unit_zero (S := S1x64) zero_off0]
  exact k0_pay1_eq x0 x1 x2 x3 x5 x4 x6

/-- The grid of region 0 has 200 points. -/
theorem point_lt0 (t : Fin cfg0.N) : t.val < 200 := by
  have h : cfg0.N = 200 := N_0
  have := t.isLt
  omega

/-- Row p of point t's block of the first edge-indexed input is row 8000·t + p of the array. -/
theorem blk0_0_read (c : Dev nD) (t : Fin cfg0.N) (p : Fin 8000) (q : Fin 64) :
    (iblk0 V c 0 t : Vec Ideal S8000x64 .f32) (ix2 p q)
      = (V c main_v4 : S1600000x64.Idx → EReal) (ix2 ⟨8000 * t.val + p.val, by have := point_lt0 t; omega⟩ q) := by
  obtain ⟨e0, e1, -⟩ := index_maps0 t
  unfold iblk0
  rw [View.read_apply]
  show V c main_v4 _ = V c main_v4 _
  congr 1
  funext a
  apply Fin.ext
  match a with
  | ⟨0, _⟩ => show win0_0.index t (0 : Fin 2) * 8000 + 1 * p.val = 8000 * t.val + p.val; rw [e0]; omega
  | ⟨1, _⟩ => show win0_0.index t (1 : Fin 2) * 64 + 1 * q.val = q.val; rw [e1]; omega

/-- Likewise the second edge-indexed input. -/
theorem blk0_1_read (c : Dev nD) (t : Fin cfg0.N) (p : Fin 8000) (q : Fin 64) :
    (iblk0 V c 1 t : Vec Ideal S8000x64 .f32) (ix2 p q)
      = (V c main_v5 : S1600000x64.Idx → EReal) (ix2 ⟨8000 * t.val + p.val, by have := point_lt0 t; omega⟩ q) := by
  obtain ⟨-, -, e0, e1, -⟩ := index_maps0 t
  unfold iblk0
  rw [View.read_apply]
  show V c main_v5 _ = V c main_v5 _
  congr 1
  funext a
  apply Fin.ext
  match a with
  | ⟨0, _⟩ => show win0_1.index t (0 : Fin 2) * 8000 + 1 * p.val = 8000 * t.val + p.val; rw [e0]; omega
  | ⟨1, _⟩ => show win0_1.index t (1 : Fin 2) * 64 + 1 * q.val = q.val; rw [e1]; omega

/-- Likewise the edge features, 32 to a row. -/
theorem blk0_2_read (c : Dev nD) (t : Fin cfg0.N) (p : Fin 8000) (q : Fin 32) :
    (iblk0 V c 2 t : Vec Ideal S8000x32 .f32) (ix2 p q)
      = (V c main_arg2 : S1600000x32.Idx → EReal) (ix2 ⟨8000 * t.val + p.val, by have := point_lt0 t; omega⟩ q) := by
  obtain ⟨-, -, -, -, e0, e1, -⟩ := index_maps0 t
  unfold iblk0
  rw [View.read_apply]
  show V c main_arg2 _ = V c main_arg2 _
  congr 1
  funext a
  apply Fin.ext
  match a with
  | ⟨0, _⟩ => show win0_2.index t (0 : Fin 2) * 8000 + 1 * p.val = 8000 * t.val + p.val; rw [e0]; omega
  | ⟨1, _⟩ => show win0_2.index t (1 : Fin 2) * 32 + 1 * q.val = q.val; rw [e1]; omega

/-- The first weight window's block is the whole weight array, at every point. -/
theorem blk0_3_whole (c : Dev nD) (t : Fin cfg0.N) :
    (iblk0 V c 3 t : Vec Ideal S160x64 .f32) = (V c main_arg3 : S160x64.Idx → EReal) := by
  obtain ⟨-, -, -, -, -, -, e0, e1, -⟩ := index_maps0 t
  funext x
  unfold iblk0
  rw [View.read_apply]
  show V c main_arg3 _ = V c main_arg3 x
  congr 1
  funext a
  apply Fin.ext
  match a with
  | ⟨0, _⟩ => show win0_3.index t (0 : Fin 2) * 160 + 1 * (x 0).val = (x 0).val; rw [e0]; omega
  | ⟨1, _⟩ => show win0_3.index t (1 : Fin 2) * 64 + 1 * (x 1).val = (x 1).val; rw [e1]; omega

/-- The first bias window's block is the whole one-row array. -/
theorem blk0_4_whole (c : Dev nD) (t : Fin cfg0.N) :
    (iblk0 V c 4 t : Vec Ideal S1x64 .f32) = (V c main_v6 : S1x64.Idx → EReal) := by
  obtain ⟨-, -, -, -, -, -, -, -, e0, e1, -⟩ := index_maps0 t
  funext x
  unfold iblk0
  rw [View.read_apply]
  show V c main_v6 _ = V c main_v6 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- The second weight window's block is the whole weight array. -/
theorem blk0_5_whole (c : Dev nD) (t : Fin cfg0.N) :
    (iblk0 V c 5 t : Vec Ideal S160x64 .f32) = (V c main_arg5 : S160x64.Idx → EReal) := by
  obtain ⟨-, -, -, -, -, -, -, -, -, -, e0, e1, -⟩ := index_maps0 t
  funext x
  unfold iblk0
  rw [View.read_apply]
  show V c main_arg5 _ = V c main_arg5 x
  congr 1
  funext a
  apply Fin.ext
  match a with
  | ⟨0, _⟩ => show win0_5.index t (0 : Fin 2) * 160 + 1 * (x 0).val = (x 0).val; rw [e0]; omega
  | ⟨1, _⟩ => show win0_5.index t (1 : Fin 2) * 64 + 1 * (x 1).val = (x 1).val; rw [e1]; omega

/-- The second bias window's block is the whole one-row array. -/
theorem blk0_6_whole (c : Dev nD) (t : Fin cfg0.N) :
    (iblk0 V c 6 t : Vec Ideal S1x64 .f32) = (V c main_v7 : S1x64.Idx → EReal) := by
  obtain ⟨-, -, -, -, -, -, -, -, -, -, -, -, e0, e1, -⟩ := index_maps0 t
  funext x
  unfold iblk0
  rw [View.read_apply]
  show V c main_v7 _ = V c main_v7 x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 64 + 1 * (x 1).val = (x 1).val; rw [e1]; omega

/-- Entry j of the message array of 8000-row blocks that sit at rows 8000·k … of taller operands is the taller
    operands' message array at the entry i with i₀ = 8000·k + j₀, i₁ = j₁. -/
theorem Hspec_block0 (k : Nat) (hk : k < 200)
    (xi xj : S8000x64.Idx → EReal) (ea : S8000x32.Idx → EReal)
    (xi' xj' : S1600000x64.Idx → EReal) (ea' : S1600000x32.Idx → EReal)
    (wf : S160x64.Idx → EReal) (bf : S1x64.Idx → EReal) (ws : S160x64.Idx → EReal) (bs : S1x64.Idx → EReal)
    (hi : ∀ (p : Fin 8000) (q : Fin 64), xi (ix2 p q) = xi' (ix2 ⟨8000 * k + p.val, by omega⟩ q))
    (hj : ∀ (p : Fin 8000) (q : Fin 64), xj (ix2 p q) = xj' (ix2 ⟨8000 * k + p.val, by omega⟩ q))
    (he : ∀ (p : Fin 8000) (q : Fin 32), ea (ix2 p q) = ea' (ix2 ⟨8000 * k + p.val, by omega⟩ q))
    (j : S8000x64.Idx) (i : S1600000x64.Idx)
    (h0 : (i 0).val = 8000 * k + (j 0).val) (h1 : (i 1).val = (j 1).val) :
    Hspec (n := 8000) xi xj ea wf bf ws bs j = Hspec (n := 1600000) xi' xj' ea' wf bf ws bs i := by
  have ej : j = ix2 (j 0) (j 1) := eq_ix2 j
  have ei : i = ix2 (⟨8000 * k + (j 0).val, by have := idx2_lt0 j; omega⟩ : Fin 1600000) (j 1) := by
    funext a
    match a with
    | ⟨0, _⟩ => exact Fin.ext h0
    | ⟨1, _⟩ => exact Fin.ext h1
  rw [ej, ei]
  exact Hspec_rows (n := 8000) (n' := 1600000) (fun p => ⟨8000 * k + p.val, by omega⟩) xi xj ea xi' xj' ea' wf bf ws bs hi hj he (j 0) (j 1)

/-- What point t writes back is block t of the message array of the whole operands. -/
theorem flushed0_7_eq (c : Dev nD) (t : Fin cfg0.N) :
    (dat0 (F := Ideal) V c).flushed 7 t
      = ((cfg0.win 7).blk t).view.read (Elt Ideal)
          (Hspec (n := 1600000) (V c main_v4) (V c main_v5) (V c main_arg2) (V c main_arg3) (V c main_v6) (V c main_arg5) (V c main_v7)) := by
  show (cfg0.win 7).cut (grid0.coords t) ((dat0 V c).after 7 t) = _
  rw [after0_7, out0_7_eq, blk0_3_whole, blk0_4_whole, blk0_5_whole, blk0_6_whole]
  obtain ⟨-, -, -, -, -, -, -, -, -, -, -, -, -, -, e0, e1⟩ := index_maps0 t
  funext j
  rw [View.read_apply]
  show Hspec (n := 8000) (iblk0 V c 0 t) (iblk0 V c 1 t) (iblk0 V c 2 t) (V c main_arg3) (V c main_v6) (V c main_arg5) (V c main_v7) j
      = Hspec (n := 1600000) (V c main_v4) (V c main_v5) (V c main_arg2) (V c main_arg3) (V c main_v6) (V c main_arg5) (V c main_v7) (((cfg0.win 7).blk t).view.emb j)
  refine Hspec_block0 t.val (point_lt0 t) (iblk0 V c 0 t) (iblk0 V c 1 t) (iblk0 V c 2 t) (V c main_v4) (V c main_v5) (V c main_arg2)
    (V c main_arg3) (V c main_v6) (V c main_arg5) (V c main_v7) (blk0_0_read V c t) (blk0_1_read V c t) (blk0_2_read V c t)
    j (((cfg0.win 7).blk t).view.emb j) ?_ ?_
  · show win0_7.index t (0 : Fin 2) * 8000 + 1 * (j 0).val = 8000 * t.val + (j 0).val
    rw [e0]; omega
  · show win0_7.index t (1 : Fin 2) * 64 + 1 * (j 1).val = (j 1).val
    rw [e1]; omega

/-- An index of the output array is in point t's block iff each coordinate is in the block's range on its axis. -/
theorem mem_blk0_7 (t : Fin cfg0.N) (i : S1600000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v8).slice (win0_7.rect t)).set ↔ _
  rw [View.set_slice_whole, Rect.mem_set_unit]
  exact Iff.rfl

/-- The 200 row blocks tile the 1600000 rows: row r is in the block of point r / 8000. -/
theorem tiles0_7 (i : S1600000x64.Idx) :
    ∃ t : Fin cfg0.N, (cfg0.win 7).flush t = true ∧ i ∈ ((cfg0.win 7).blk t).view.set := by
  have hi0 : (i 0).val < 1600000 := idx2_lt0 i
  have hi1 : (i 1).val < 64 := idx2_lt1 i
  have hN : cfg0.N = 200 := N_0
  obtain ⟨t, ht⟩ : ∃ t : Fin cfg0.N, t.val = (i 0).val / 8000 := ⟨⟨(i 0).val / 8000, by rw [hN]; omega⟩, rfl⟩
  obtain ⟨-, -, -, -, -, -, -, -, -, -, -, -, -, -, e0, e1⟩ := index_maps0 t
  refine ⟨t, flush0_7 t, ?_⟩
  rw [mem_blk0_7]
  intro a
  match a with
  | ⟨0, _⟩ =>
    show win0_7.index t (0 : Fin 2) * 8000 ≤ (i 0).val ∧ (i 0).val < win0_7.index t (0 : Fin 2) * 8000 + 8000
    rw [e0, ht]; omega
  | ⟨1, _⟩ =>
    show win0_7.index t (1 : Fin 2) * 64 ≤ (i 1).val ∧ (i 1).val < win0_7.index t (1 : Fin 2) * 64 + 64
    rw [e1]; omega

end Blocks0

open Blocks0 in
/-- After region 0, entered with its operand arrays at `V`, its output array is the message array of those operands. -/
theorem final0 (c : Dev nD) :
    (dat0 (F := Ideal) V c).arrAt 7 cfg0.N
      = Hspec (n := 1600000) (V c main_v4) (V c main_v5) (V c main_arg2) (V c main_arg3) (V c main_v6) (V c main_arg5) (V c main_v7) :=
  (dat0 (F := Ideal) V c).arrAt_eq_of_cover 7
    (Hspec (n := 1600000) (V c main_v4) (V c main_v5) (V c main_arg2) (V c main_arg3) (V c main_v6) (V c main_arg5) (V c main_v7))
    (fun t _ => flushed0_7_eq V c t) tiles0_7

end Cert.KernelIdeal.Val

end
-- ==== Proof.K1Pay.lean ====
/-
  Region 1's body at one entry.  A grid point holds 10000 node rows of the summed messages and of the node features,
  and four one-row arrays: the column means, the column variances, the scale and the shift.  The body adds the offset
  to the variance row and takes the reciprocal square root, spreads each row array down the block's rows, and forms
  `x + ((msg - mean) · rsqrt(var + ε) · γ + β)` entry by entry.
-/
import proofs.«419440_j11536282157551_1_alg».proof.Proof.Gen.KernelIdeal.Skeleton
import proofs.«419440_j11536282157551_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

/-- The value region 1's body stores, as a function of the blocks it loads, is the output array of those blocks. -/
theorem k1_pay1_eq (var : Vec Ideal S1x64 .f32) (msg : Vec Ideal S10000x64 .f32) (mean gam bet : Vec Ideal S1x64 .f32)
    (node : Vec Ideal S10000x64 .f32) :
    k1_pay1 (F := Ideal) var msg mean gam bet node = OUTspec (n := 10000) msg node mean var gam bet := by
  funext i
  obtain ⟨p, q, rfl⟩ : ∃ (p : Fin 10000) (q : Fin 64), i = ix2 p q := ⟨i 0, i 1, eq_ix2 i⟩
  unfold k1_pay1
  simp only [shapeCast_self, addf_apply, mulf_apply, subf_apply, broadcastTo_1b_ab_apply]
  rfl

end Cert.KernelIdeal.Val

end
-- ==== Proof.Blocks1.lean ====
/-
  From region 1's blocks to its output array.  Grid point `t` reads rows `10000·t … 10000·t + 9999` of the summed
  messages and of the node features and the four whole one-row arrays, and writes back the same rows of the output.
  What it writes is the output array of its blocks, which is the same rows of the output array of the whole operands;
  the 10 row blocks tile the 100000 rows.
-/
import proofs.«419440_j11536282157551_1_alg».proof.Proof.Gen.KernelIdeal.Frame
import proofs.«419440_j11536282157551_1_alg».proof.Proof.K1Pay
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Blocks1

/-- The zero offsets of a whole-buffer access, as the constant function. -/
theorem zero_off1 : (![0, 0] : Fin 2 → Nat) = fun _ => 0 := funext fun a => by fin_cases a <;> rfl

/-- The printed index maps over the 10 grid points: the summed messages, the node features and the output sit at
    row block t, column block 0; the four one-row arrays at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What the body leaves in the output's buffer is the output array of the six blocks. -/
theorem out1_6_eq (x0 x1 : Vec Ideal S10000x64 .f32) (x2 x3 x4 x5 : Vec Ideal S1x64 .f32) :
    out1_6 (F := Ideal) x0 x1 x2 x3 x4 x5 = OUTspec (n := 10000) x0 x1 x2 x3 x4 x5 := by
  unfold out1_6
  rw [View.canon_unit_zero zero_off1]
  simp only [View.ld_unit_zero (S := S10000x64) zero_off1, View.ld_unit_zero (S := S1x64) zero_off1]
  exact k1_pay1_eq x3 x0 x2 x4 x5 x1

/-- The grid of region 1 has 10 points. -/
theorem point_lt1 (t : Fin cfg1.N) : t.val < 10 := by
  have h : cfg1.N = 10 := N_1
  have := t.isLt
  omega

/-- Row p of point t's block of the summed messages is row 10000·t + p of the array. -/
theorem blk1_0_read (c : Dev nD) (t : Fin cfg1.N) (p : Fin 10000) (q : Fin 64) :
    (iblk1 V c 0 t : Vec Ideal S10000x64 .f32) (ix2 p q)
      = (V c main_v11 : S100000x64.Idx → EReal) (ix2 ⟨10000 * t.val + p.val, by have := point_lt1 t; omega⟩ q) := by
  obtain ⟨e0, e1, -⟩ := index_maps1 t
  unfold iblk1
  rw [View.read_apply]
  show V c main_v11 _ = V c main_v11 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * q.val = q.val; rw [e1]; omega

/-- Likewise the node features. -/
theorem blk1_1_read (c : Dev nD) (t : Fin cfg1.N) (p : Fin 10000) (q : Fin 64) :
    (iblk1 V c 1 t : Vec Ideal S10000x64 .f32) (ix2 p q)
      = (V c main_arg0 : S100000x64.Idx → EReal) (ix2 ⟨10000 * t.val + p.val, by have := point_lt1 t; omega⟩ q) := by
  obtain ⟨-, -, e0, e1, -⟩ := index_maps1 t
  unfold iblk1
  rw [View.read_apply]
  show V c main_arg0 _ = V c main_arg0 _
  congr 1
  funext a
  apply Fin.ext
  match a with
  | ⟨0, _⟩ => show win1_1.index t (0 : Fin 2) * 10000 + 1 * p.val = 10000 * t.val + p.val; rw [e0]; omega
  | ⟨1, _⟩ => show win1_1.index t (1 : Fin 2) * 64 + 1 * q.val = q.val; rw [e1]; omega

/-- The column means' block is the whole one-row array, at every point. -/
theorem blk1_2_whole (c : Dev nD) (t : Fin cfg1.N) :
    (iblk1 V c 2 t : Vec Ideal S1x64 .f32) = (V c main_v22 : S1x64.Idx → EReal) := by
  obtain ⟨-, -, -, -, e0, e1, -⟩ := index_maps1 t
  funext x
  unfold iblk1
  rw [View.read_apply]
  show V c main_v22 _ = V c main_v22 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The column variances' block is the whole one-row array. -/
theorem blk1_3_whole (c : Dev nD) (t : Fin cfg1.N) :
    (iblk1 V c 3 t : Vec Ideal S1x64 .f32) = (V c main_v23 : S1x64.Idx → EReal) := by
  obtain ⟨-, -, -, -, -, -, e0, e1, -⟩ := index_maps1 t
  funext x
  unfold iblk1
  rw [View.read_apply]
  show V c main_v23 _ = V c main_v23 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- The scales' block is the whole one-row array. -/
theorem blk1_4_whole (c : Dev nD) (t : Fin cfg1.N) :
    (iblk1 V c 4 t : Vec Ideal S1x64 .f32) = (V c main_v24 : S1x64.Idx → EReal) := by
  obtain ⟨-, -, -, -, -, -, -, -, e0, e1, -⟩ := index_maps1 t
  funext x
  unfold iblk1
  rw [View.read_apply]
  show V c main_v24 _ = V c main_v24 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The shifts' block is the whole one-row array. -/
theorem blk1_5_whole (c : Dev nD) (t : Fin cfg1.N) :
    (iblk1 V c 5 t : Vec Ideal S1x64 .f32) = (V c main_v25 : S1x64.Idx → EReal) := by
  obtain ⟨-, -, -, -, -, -, -, -, -, -, e0, e1, -⟩ := index_maps1 t
  funext x
  unfold iblk1
  rw [View.read_apply]
  show V c main_v25 _ = V c main_v25 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- Entry j of the output array of 10000-row blocks that sit at rows 10000·k … of taller operands is the taller
    operands' output array at the entry i with i₀ = 10000·k + j₀, i₁ = j₁. -/
theorem OUTspec_block1 (k : Nat) (hk : k < 10)
    (msg node : S10000x64.Idx → EReal) (msg' node' : S100000x64.Idx → EReal)
    (mean var gam bet : S1x64.Idx → EReal)
    (hm : ∀ (p : Fin 10000) (q : Fin 64), msg (ix2 p q) = msg' (ix2 ⟨10000 * k + p.val, by omega⟩ q))
    (hn : ∀ (p : Fin 10000) (q : Fin 64), node (ix2 p q) = node' (ix2 ⟨10000 * k + p.val, by omega⟩ q))
    (j : S10000x64.Idx) (i : S100000x64.Idx)
    (h0 : (i 0).val = 10000 * k + (j 0).val) (h1 : (i 1).val = (j 1).val) :
    OUTspec (n := 10000) msg node mean var gam bet j = OUTspec (n := 100000) msg' node' mean var gam bet i := by
  have ej : j = ix2 (j 0) (j 1) := eq_ix2 j
  have ei : i = ix2 (⟨10000 * k + (j 0).val, by have := idx2_lt0 j; omega⟩ : Fin 100000) (j 1) := by
    funext a
    match a with
    | ⟨0, _⟩ => exact Fin.ext h0
    | ⟨1, _⟩ => exact Fin.ext h1
  rw [ej, ei]
  exact OUTspec_rows (n := 10000) (n' := 100000) (fun p => ⟨10000 * k + p.val, by omega⟩) msg node msg' node' mean var gam bet hm hn (j 0) (j 1)

/-- What point t writes back is block t of the output array of the whole operands. -/
theorem flushed1_6_eq (c : Dev nD) (t : Fin cfg1.N) :
    (dat1 (F := Ideal) V c).flushed 6 t
      = ((cfg1.win 6).blk t).view.read (Elt Ideal)
          (OUTspec (n := 100000) (V c main_v11) (V c main_arg0) (V c main_v22) (V c main_v23) (V c main_v24) (V c main_v25)) := by
  show (cfg1.win 6).cut (grid1.coords t) ((dat1 V c).after 6 t) = _
  rw [after1_6, out1_6_eq, blk1_2_whole, blk1_3_whole, blk1_4_whole, blk1_5_whole]
  obtain ⟨-, -, -, -, -, -, -, -, -, -, -, -, e0, e1⟩ := index_maps1 t
  funext j
  rw [View.read_apply]
  show OUTspec (n := 10000) (iblk1 V c 0 t) (iblk1 V c 1 t) (V c main_v22) (V c main_v23) (V c main_v24) (V c main_v25) j
      = OUTspec (n := 100000) (V c main_v11) (V c main_arg0) (V c main_v22) (V c main_v23) (V c main_v24) (V c main_v25) (((cfg1.win 6).blk t).view.emb j)
  refine OUTspec_block1 t.val (point_lt1 t) (iblk1 V c 0 t) (iblk1 V c 1 t) (V c main_v11) (V c main_arg0)
    (V c main_v22) (V c main_v23) (V c main_v24) (V c main_v25) (blk1_0_read V c t) (blk1_1_read V c t)
    j (((cfg1.win 6).blk t).view.emb j) ?_ ?_
  · show win1_6.index t (0 : Fin 2) * 10000 + 1 * (j 0).val = 10000 * t.val + (j 0).val
    rw [e0]; omega
  · show win1_6.index t (1 : Fin 2) * 64 + 1 * (j 1).val = (j 1).val
    rw [e1]; omega

/-- An index of the output array is in point t's block iff each coordinate is in the block's range on its axis. -/
theorem mem_blk1_6 (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v26).slice (win1_6.rect t)).set ↔ _
  rw [View.set_slice_whole, Rect.mem_set_unit]
  exact Iff.rfl

/-- The 10 row blocks tile the 100000 rows: row r is in the block of point r / 10000. -/
theorem tiles1_6 (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, -, -, e0, e1⟩ := index_maps1 t
  refine ⟨t, flush1_6 t, ?_⟩
  rw [mem_blk1_6]
  intro a
  match a with
  | ⟨0, _⟩ =>
    show win1_6.index t (0 : Fin 2) * 10000 ≤ (i 0).val ∧ (i 0).val < win1_6.index t (0 : Fin 2) * 10000 + 10000
    rw [e0, ht]; omega
  | ⟨1, _⟩ =>
    show win1_6.index t (1 : Fin 2) * 64 ≤ (i 1).val ∧ (i 1).val < win1_6.index t (1 : Fin 2) * 64 + 64
    rw [e1]; omega

end Blocks1

open Blocks1 in
/-- After region 1, entered with its operand arrays at `V`, its output array is the output array of those operands. -/
theorem final1 (c : Dev nD) :
    (dat1 (F := Ideal) V c).arrAt 6 cfg1.N
      = OUTspec (n := 100000) (V c main_v11) (V c main_arg0) (V c main_v22) (V c main_v23) (V c main_v24) (V c main_v25) :=
  (dat1 (F := Ideal) V c).arrAt_eq_of_cover 6
    (OUTspec (n := 100000) (V c main_v11) (V c main_arg0) (V c main_v22) (V c main_v23) (V c main_v24) (V c main_v25))
    (fun t _ => flushed1_6_eq V c t) tiles1_6

end Cert.KernelIdeal.Val

end
-- ==== Proof.HostVals.lean ====
/-
  What the host operations between the regions leave in the arrays the regions read, as terms of the argument arrays.
  Before region 0: the two index rows are sliced out of the edge index and flattened; each is wrapped (a negative
  index has the row count added), the node rows are gathered at it, and a row whose wrapped index lies outside
  `[0, 99999]` is replaced by a fill word; the two biases are reshaped to one-row arrays.  Between the regions: the
  region-0 output is summed into node rows by source index, the column mean and the column variance of that sum are
  formed, and they, the scale and the shift are reshaped to one-row arrays.
-/
import proofs.«419440_j11536282157551_1_alg».proof.Proof.Gen.KernelIdeal.Frame
import Idealize.ShloMosaic.Lib.StableHlo.Run
import Idealize.ShloMosaic.Lib.ValueIdx
import proofs.«419440_j11536282157551_1_alg».proof.Proof.Spec

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.StableHlo

/-- Row `r` of the edge index, flattened: the source indices (`r = 0`) or the target indices (`r = 1`). -/
def srcK (a1 : IVec S2x1600000 32) : IVec S1600000 32 :=
  shapeCast _ (extractStridedSlice S1x1600000 ![0, 0] a1 slices_S2x1600000_S1x1600000_0_0) shapeCasts_S1x1600000_S1600000
def tgtK (a1 : IVec S2x1600000 32) : IVec S1600000 32 :=
  shapeCast _ (extractStridedSlice S1x1600000 ![1, 0] a1 slices_S2x1600000_S1x1600000_1_0) shapeCasts_S1x1600000_S1600000

/-- The wrapped index as a one-column array: `i + 100000` where `i < 0`, else `i`. -/
def wrapK (i1 : IVec S1600000 32) : IVec S1600000x1 32 :=
  broadcastInDim S1600000x1 ![0] bcast_S1600000_S1600000x1_0
    (select (cmpi .slt i1 (broadcastInDim S1600000 ![] bcast_S_S1600000 (constantI S_ 32 0#32)))
      (addi i1 (broadcastInDim S1600000 ![] bcast_S_S1600000 (constantI S_ 32 100000#32))) i1)

/-- Per edge: is the wrapped index inside `[0, 99999]`. -/
def maskK (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gathered node rows, a row replaced by the fill word where its wrapped index is out of range. -/
def takeK (a0 : FVec Ideal S100000x64 .f32) (i1 : IVec S1600000 32) : FVec Ideal S1600000x64 .f32 :=
  select (broadcastInDim S1600000x64 ![0] bcast_S1600000_S1600000x64_0 (maskK (wrapK i1)))
    (Host.gather gather_S100000x64_S1600000x1_S1600000x64_1_0_n_n_0_1_164 a0 (wrapK i1))
    (broadcastInDim S1600000x64 ![] bcast_S_S1600000x64 (constant (F := Ideal) S_ .f32 0x7FC00000#32))

/-- The per-edge array `H` summed into node rows by source index, from zero. -/
def msgK (i1 : IVec S1600000 32) (H : FVec Ideal S1600000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 i1) H

/-- The column means of a node array: its column sums over `100000`. -/
def meanK (M : FVec Ideal S100000x64 .f32) : FVec Ideal S64 .f32 :=
  Host.divf (F := Ideal) (Host.reduceAdd (F := Ideal) M (constant (F := Ideal) S_ .f32 0x00000000#32) reducesTo_S100000x64_S64_d0 h_S_)
    (broadcastInDim S64 ![] bcast_S_S64 (constant (F := Ideal) S_ .f32 0x47C35000#32))

/-- The column variances: the column means of the squared deviations from the column means. -/
def varK (M : FVec Ideal S100000x64 .f32) : FVec Ideal S64 .f32 :=
  Host.divf (F := Ideal)
    (Host.reduceAdd (F := Ideal)
      (mulf (subf M (broadcastInDim S100000x64 ![0, 1] bcast_S1x64_S100000x64_0_1 (broadcastInDim S1x64 ![1] bcast_S64_S1x64_1 (meanK M))))
        (subf M (broadcastInDim S100000x64 ![0, 1] bcast_S1x64_S100000x64_0_1 (broadcastInDim S1x64 ![1] bcast_S64_S1x64_1 (meanK M)))))
      (constant (F := Ideal) S_ .f32 0x00000000#32) reducesTo_S100000x64_S64_d0 h_S_)
    (broadcastInDim S64 ![] bcast_S_S64 (constant (F := Ideal) S_ .f32 0x47C35000#32))

variable (m : (ℓ : Loc nD τ sig) → Buf (Elt Ideal) ℓ) (ρ : Dev nD → PrngReg)

/-! ### As region 0 is entered -/

/-- Contents moved to a buffer's own type and back are the contents. -/
theorem ofBuf_toBuf {Val : EltTy → Type} {T : BufTy} (x : TRef sig T) (v : T.Contents Val) : x.ofBuf (x.toBuf v) = v := by
  obtain ⟨r, h, hd, hu⟩ := x
  subst h
  rfl

set_option maxHeartbeats 4000000 in
/-- The second stretch (the take at the source indices) over any contents: the taken rows of the node array and of the
    flattened source-index row it finds, each moved between its buffer's own type and the tensor's. -/
theorem take_src_stretch (W : Valuation τ sig (Elt Ideal)) :
    StableHlo.after (hostOps0_1 (F := Ideal)) W (Proc.devRef .tc main_v4)
      = (TRef.of (T := ⟨S1600000x64, .f32⟩) main_v4).toBuf
          (takeK ((TRef.of (T := ⟨S100000x64, .f32⟩) main_arg0).ofBuf (W (Proc.devRef .tc main_arg0)))
            ((TRef.of (T := ⟨S1600000, .i32⟩) main_v1).ofBuf (W (Proc.devRef .tc main_v1)))) := by
  after_results
  simp only [ofBuf_toBuf]
  unfold takeK maskK wrapK
  rfl

set_option maxHeartbeats 4000000 in
/-- The third stretch (the take at the target indices), likewise. -/
theorem take_tgt_stretch (W : Valuation τ sig (Elt Ideal)) :
    StableHlo.after (hostOps0_2 (F := Ideal)) W (Proc.devRef .tc main_v5)
      = (TRef.of (T := ⟨S1600000x64, .f32⟩) main_v5).toBuf
          (takeK ((TRef.of (T := ⟨S100000x64, .f32⟩) main_arg0).ofBuf (W (Proc.devRef .tc main_arg0)))
            ((TRef.of (T := ⟨S1600000, .i32⟩) main_v3).ofBuf (W (Proc.devRef .tc main_v3)))) := by
  after_results
  simp only [ofBuf_toBuf]
  unfold takeK maskK wrapK
  rfl

/-- The taken source rows are written by the second stretch and untouched by the two after it. -/
theorem W4_v4_W2 (c : Dev nD) : W4 m ρ c (Proc.devRef .tc main_v4) = W2 m ρ c (Proc.devRef .tc main_v4) :=
  (StableHlo.after_of_forall_not_mem (b := Proc.devRef .tc main_v4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (StableHlo.after_of_forall_not_mem (b := Proc.devRef .tc main_v4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The taken target rows are written by the third stretch and untouched by the one after it. -/
theorem W4_v5_W3 (c : Dev nD) : W4 m ρ c (Proc.devRef .tc main_v5) = W3 m ρ c (Proc.devRef .tc main_v5) :=
  StableHlo.after_of_forall_not_mem (b := Proc.devRef .tc main_v5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem V4_v4 (c : Dev nD) : V4 m ρ c main_v4 = takeK (m ((c : Thread nD τ).loc main_arg0)) (srcK (m ((c : Thread nD τ).loc main_arg1))) := by
  refine (W4_v4_W2 m ρ c).trans ((take_src_stretch (W1 m ρ c)).trans ?_)
  have e0 : (TRef.of (T := ⟨S100000x64, .f32⟩) main_arg0).ofBuf (W1 m ρ c (Proc.devRef .tc main_arg0)) = m ((c : Thread nD τ).loc main_arg0) := by
    show (TRef.of (T := ⟨S100000x64, .f32⟩) main_arg0).ofBuf (StableHlo.after hostOps0 (W0 m ρ c) (Proc.devRef .tc main_arg0)) = _
    after_results
    rfl
  have e1 : (TRef.of (T := ⟨S1600000, .i32⟩) main_v1).ofBuf (W1 m ρ c (Proc.devRef .tc main_v1)) = srcK (m ((c : Thread nD τ).loc main_arg1)) := by
    show (TRef.of (T := ⟨S1600000, .i32⟩) main_v1).ofBuf (StableHlo.after hostOps0 (W0 m ρ c) (Proc.devRef .tc main_v1)) = _
    after_results
    rfl
  rw [e0, e1]
  generalize takeK (m ((c : Thread nD τ).loc main_arg0)) (srcK (m ((c : Thread nD τ).loc main_arg1))) = A
  rfl

set_option maxHeartbeats 4000000 in
theorem V4_v5 (c : Dev nD) : V4 m ρ c main_v5 = takeK (m ((c : Thread nD τ).loc main_arg0)) (tgtK (m ((c : Thread nD τ).loc main_arg1))) := by
  refine (W4_v5_W3 m ρ c).trans ((take_tgt_stretch (W2 m ρ c)).trans ?_)
  have e0 : (TRef.of (T := ⟨S100000x64, .f32⟩) main_arg0).ofBuf (W2 m ρ c (Proc.devRef .tc main_arg0)) = m ((c : Thread nD τ).loc main_arg0) := by
    show (TRef.of (T := ⟨S100000x64, .f32⟩) main_arg0).ofBuf (StableHlo.after hostOps0_1 (StableHlo.after hostOps0 (W0 m ρ c)) (Proc.devRef .tc main_arg0)) = _
    after_results
    rfl
  have e1 : (TRef.of (T := ⟨S1600000, .i32⟩) main_v3).ofBuf (W2 m ρ c (Proc.devRef .tc main_v3)) = tgtK (m ((c : Thread nD τ).loc main_arg1)) := by
    show (TRef.of (T := ⟨S1600000, .i32⟩) main_v3).ofBuf (StableHlo.after hostOps0_1 (StableHlo.after hostOps0 (W0 m ρ c)) (Proc.devRef .tc main_v3)) = _
    after_results
    rfl
  rw [e0, e1]
  generalize takeK (m ((c : Thread nD τ).loc main_arg0)) (tgtK (m ((c : Thread nD τ).loc main_arg1))) = A
  rfl
theorem V4_v1 (c : Dev nD) : V4 m ρ c main_v1 = srcK (m ((c : Thread nD τ).loc main_arg1)) := by
  show StableHlo.after hostOps0_3 (StableHlo.after hostOps0_2 (StableHlo.after hostOps0_1 (StableHlo.after hostOps0 (W0 m ρ c)))) (Proc.devRef .tc main_v1) = _
  after_results
  rfl
theorem V4_arg0 (c : Dev nD) : V4 m ρ c main_arg0 = m ((c : Thread nD τ).loc main_arg0) := by
  show StableHlo.after hostOps0_3 (StableHlo.after hostOps0_2 (StableHlo.after hostOps0_1 (StableHlo.after hostOps0 (W0 m ρ c)))) (Proc.devRef .tc main_arg0) = _
  after_results
theorem V4_arg2 (c : Dev nD) : V4 m ρ c main_arg2 = m ((c : Thread nD τ).loc main_arg2) := by
  show StableHlo.after hostOps0_3 (StableHlo.after hostOps0_2 (StableHlo.after hostOps0_1 (StableHlo.after hostOps0 (W0 m ρ c)))) (Proc.devRef .tc main_arg2) = _
  after_results
theorem V4_arg3 (c : Dev nD) : V4 m ρ c main_arg3 = m ((c : Thread nD τ).loc main_arg3) := by
  show StableHlo.after hostOps0_3 (StableHlo.after hostOps0_2 (StableHlo.after hostOps0_1 (StableHlo.after hostOps0 (W0 m ρ c)))) (Proc.devRef .tc main_arg3) = _
  after_results
theorem V4_arg5 (c : Dev nD) : V4 m ρ c main_arg5 = m ((c : Thread nD τ).loc main_arg5) := by
  show StableHlo.after hostOps0_3 (StableHlo.after hostOps0_2 (StableHlo.after hostOps0_1 (StableHlo.after hostOps0 (W0 m ρ c)))) (Proc.devRef .tc main_arg5) = _
  after_results
theorem V4_arg7 (c : Dev nD) : V4 m ρ c main_arg7 = m ((c : Thread nD τ).loc main_arg7) := by
  show StableHlo.after hostOps0_3 (StableHlo.after hostOps0_2 (StableHlo.after hostOps0_1 (StableHlo.after hostOps0 (W0 m ρ c)))) (Proc.devRef .tc main_arg7) = _
  after_results
theorem V4_arg8 (c : Dev nD) : V4 m ρ c main_arg8 = m ((c : Thread nD τ).loc main_arg8) := by
  show StableHlo.after hostOps0_3 (StableHlo.after hostOps0_2 (StableHlo.after hostOps0_1 (StableHlo.after hostOps0 (W0 m ρ c)))) (Proc.devRef .tc main_arg8) = _
  after_results
theorem V4_v6 (c : Dev nD) : V4 m ρ c main_v6 = shapeCast _ (m ((c : Thread nD τ).loc main_arg4)) shapeCasts_S64_S1x64 := by
  show StableHlo.after hostOps0_3 (StableHlo.after hostOps0_2 (StableHlo.after hostOps0_1 (StableHlo.after hostOps0 (W0 m ρ c)))) (Proc.devRef .tc main_v6) = _
  after_results
  rfl
theorem V4_v7 (c : Dev nD) : V4 m ρ c main_v7 = shapeCast _ (m ((c : Thread nD τ).loc main_arg6)) shapeCasts_S64_S1x64 := by
  show StableHlo.after hostOps0_3 (StableHlo.after hostOps0_2 (StableHlo.after hostOps0_1 (StableHlo.after hostOps0 (W0 m ρ c)))) (Proc.devRef .tc main_v7) = _
  after_results
  rfl

/-! ### As region 1 is entered

Region 0 writes only its own output array; every other buffer is as region 0 found it. -/

theorem W5_v1 (c : Dev nD) : W5 m ρ c (Proc.devRef .tc main_v1) = srcK (m ((c : Thread nD τ).loc main_arg1)) :=
  (W5_of_ne m ρ c main_v1 (by decide)).trans (V4_v1 m ρ c)
theorem W5_v8 (c : Dev nD) : W5 m ρ c (Proc.devRef .tc main_v8) = (dat0 (V4 m ρ) c).arrAt 7 cfg0.N := W5_arr m ρ c 7
theorem W5_arg0 (c : Dev nD) : W5 m ρ c (Proc.devRef .tc main_arg0) = m ((c : Thread nD τ).loc main_arg0) :=
  (W5_of_ne m ρ c main_arg0 (by decide)).trans (V4_arg0 m ρ c)
theorem W5_arg7 (c : Dev nD) : W5 m ρ c (Proc.devRef .tc main_arg7) = m ((c : Thread nD τ).loc main_arg7) :=
  (W5_of_ne m ρ c main_arg7 (by decide)).trans (V4_arg7 m ρ c)
theorem W5_arg8 (c : Dev nD) : W5 m ρ c (Proc.devRef .tc main_arg8) = m ((c : Thread nD τ).loc main_arg8) :=
  (W5_of_ne m ρ c main_arg8 (by decide)).trans (V4_arg8 m ρ c)

/-- The summed messages over what region 0 left, before the region-0 contents are named. -/
theorem V6_v11_raw (c : Dev nD) :
    V6 m ρ c main_v11 = msgK (W5 m ρ c (Proc.devRef .tc main_v1)) (W5 m ρ c (Proc.devRef .tc main_v8)) := by
  show StableHlo.after hostOps1 (W5 m ρ c) (Proc.devRef .tc main_v11) = _
  after_results
  rfl
theorem V6_v11 (c : Dev nD) :
    V6 m ρ c main_v11 = msgK (srcK (m ((c : Thread nD τ).loc main_arg1))) ((dat0 (V4 m ρ) c).arrAt 7 cfg0.N) := by
  rw [V6_v11_raw, W5_v1, W5_v8]
theorem V6_arg0 (c : Dev nD) : V6 m ρ c main_arg0 = m ((c : Thread nD τ).loc main_arg0) := by
  show StableHlo.after hostOps1 (W5 m ρ c) (Proc.devRef .tc main_arg0) = _
  after_results
  exact W5_arg0 m ρ c
theorem V6_v22 (c : Dev nD) : V6 m ρ c main_v22 = shapeCast _ (meanK (V6 m ρ c main_v11)) shapeCasts_S64_S1x64 := by
  rw [V6_v11_raw]
  show StableHlo.after hostOps1 (W5 m ρ c) (Proc.devRef .tc main_v22) = _
  after_results
  rfl
set_option maxHeartbeats 4000000 in
theorem V6_v23 (c : Dev nD) : V6 m ρ c main_v23 = shapeCast _ (varK (V6 m ρ c main_v11)) shapeCasts_S64_S1x64 := by
  rw [V6_v11_raw]
  show StableHlo.after hostOps1 (W5 m ρ c) (Proc.devRef .tc main_v23) = _
  after_results
  rfl
theorem V6_v24 (c : Dev nD) : V6 m ρ c main_v24 = shapeCast _ (m ((c : Thread nD τ).loc main_arg7)) shapeCasts_S64_S1x64 := by
  show StableHlo.after hostOps1 (W5 m ρ c) (Proc.devRef .tc main_v24) = _
  after_results
  rw [W5_arg7]
  rfl
theorem V6_v25 (c : Dev nD) : V6 m ρ c main_v25 = shapeCast _ (m ((c : Thread nD τ).loc main_arg8)) shapeCasts_S64_S1x64 := by
  show StableHlo.after hostOps1 (W5 m ρ c) (Proc.devRef .tc main_v25) = _
  after_results
  rw [W5_arg8]
  rfl

end Cert.KernelIdeal.Val

end
-- ==== Proof.PreTake.lean ====
/-
  What the added precondition gives.  The precondition says every entry of the edge index is at least 0 and below
  100000 (two `all`-reductions of signed compares, beside the finiteness of the float inputs).  For such an index
  the wrap leaves it as it is, the wrapped index lies in `[0, 99999]`, so the in-range test holds on every edge and the
  take's fill never applies: the taken rows are the gathered rows.
-/
import proofs.«419440_j11536282157551_1_alg».proof.Defs
import proofs.«419440_j11536282157551_1_alg».proof.Proof.HostVals
import Idealize.ShloMosaic.Lib.ReduceAll
import Idealize.ShloMosaic.Lib.StableHlo.Predicate
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

/-- Every entry of the edge index names a node: as a signed word it lies in `[0, 100000)`. -/
def InRange (a1 : IVec S2x1600000 32) : Prop :=
  ∀ i : S2x1600000.Idx, 0 ≤ (a1 i).toInt ∧ (a1 i).toInt < 100000

/-! ### Words in range

The three constants as signed integers, and what the three compares say of a word `w` with `0 ≤ w < 100000`:
it is not below zero, it is at least zero, and it is at most `99999`. -/

theorem toInt_c0 : (0#32 : BitVec 32).toInt = 0 := by decide
theorem toInt_c99999 : (99999#32 : BitVec 32).toInt = 99999 := by decide
theorem toInt_c100000 : (100000#32 : BitVec 32).toInt = 100000 := by decide

theorem slt_zero_of_nonneg (w : BitVec 32) (h0 : 0 ≤ w.toInt) : IntOp.cmpi .slt w 0#32 = 0#1 := by
  refine eq_zero_of_ne_one fun h => ?_
  have h' := IntOp.cmpi_slt.1 h
  rw [toInt_c0] at h'
  omega

theorem sge_zero_of_nonneg (w : BitVec 32) (h0 : 0 ≤ w.toInt) : IntOp.cmpi .sge w 0#32 = 1#1 := by
  rw [IntOp.cmpi_sge, toInt_c0]; exact h0

theorem sle_top_of_lt (w : BitVec 32) (h1 : w.toInt < 100000) : IntOp.cmpi .sle w 99999#32 = 1#1 := by
  rw [IntOp.cmpi_sle, toInt_c99999]; omega

/-! ### An `all` of ones is one

The converse of reading an `all` back: a left fold by `and` from 1 over words that are all 1 is 1, so a reduction by
`and` from the constant 1 of an array of ones is 1 at every result index. -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l fun n hn => h n (List.mem_cons_of_mem _ hn)

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-! ### The precondition, decoded -/

/-- The result shape of an `all` has one index. -/
instance subsingleton_scalarIdx : Subsingleton Cert.Pre_finite_inputs.S_.Idx := ⟨fun a b => funext fun d => d.elim0⟩

/-- The last part of the precondition ends in `(… ∧ all (a1 ≥ 0)) ∧ all (a1 < 100000)`: if it is 1, both compares
    are 1 at every entry, which as signed integers is the range. -/
theorem range_of_part2 [Cert.Pre_finite_inputs.Facts] (a1 : IVec S2x1600000 32) (a8 : FVec Ideal Cert.Pre_finite_inputs.S64 .f32)
    (v33 : IVec Cert.Pre_finite_inputs.S_ 1)
    (e : Cert.Pre_finite_inputs.fn_part2 (F := Ideal) a1 a8 v33 ix0 = 1#1) : InRange a1 := by
  intro i
  obtain ⟨e1, hlt⟩ := IntOp.andi_eq_one.1 e
  obtain ⟨-, hge⟩ := IntOp.andi_eq_one.1 e1
  have h0 : IntOp.cmpi .sge (a1 i) 0#32 = 1#1 := Host.reduce_andi_all _ _ _ _ ix0 hge i
  have h1 : IntOp.cmpi .slt (a1 i) 100000#32 = 1#1 := Host.reduce_andi_all _ _ _ _ ix0 hlt i
  have h0' := IntOp.cmpi_sge.1 h0
  have h1' := IntOp.cmpi_slt.1 h1
  rw [toInt_c0] at h0'
  rw [toInt_c100000] at h1'
  exact ⟨h0', h1'⟩

/-- The precondition puts the edge index in range, on every device. -/
theorem inRange_of_pre [Cert.Pre_finite_inputs.Facts] (m : (ℓ : Loc nD τ sig) → Buf (Elt Ideal) ℓ)
    (h : Cert.Pre_KernelIdeal m) (c : Dev nD) : InRange (m ((c : Thread nD τ).loc main_arg1)) := by
  have e := congrFun (h c) ix0
  exact range_of_part2 _ _ _ e

/-! ### The take is the gather -/

section Take
variable (i1 : IVec S1600000 32) (hi : ∀ e : S1600000.Idx, 0 ≤ (i1 e).toInt ∧ (i1 e).toInt < 100000)
include hi

/-- An index that is not negative is left as it is by the wrap. -/
theorem wrapSel_apply (e : S1600000.Idx) :
    select (cmpi .slt i1 (broadcastInDim S1600000 ![] bcast_S_S1600000 (constantI S_ 32 0#32)))
      (addi i1 (broadcastInDim S1600000 ![] bcast_S_S1600000 (constantI S_ 32 100000#32))) i1 e = i1 e := by
  rw [select_apply]
  have hc : cmpi .slt i1 (broadcastInDim S1600000 ![] bcast_S_S1600000 (constantI S_ 32 0#32)) e = 0#1 :=
    slt_zero_of_nonneg (i1 e) (hi e).1
  rw [hc, select_zero]

/-- So every entry of the wrapped one-column array is an entry of the index, in range. -/
theorem wrapK_range (k : S1600000x1.Idx) : 0 ≤ (wrapK i1 k).toInt ∧ (wrapK i1 k).toInt < 100000 := by
  have hk : wrapK i1 k = i1 _ := wrapSel_apply i1 hi _
  rw [hk]
  exact hi _

/-- The in-range test holds on every edge. -/
theorem maskK_one (e : S1600000.Idx) : maskK (wrapK i1) e = 1#1 := by
  unfold maskK
  refine reduce_andi_one _ _ _ _ e rfl fun k => ?_
  obtain ⟨h0, h1⟩ := wrapK_range i1 hi k
  exact IntOp.andi_eq_one.2 ⟨sge_zero_of_nonneg _ h0, sle_top_of_lt _ h1⟩

/-- With every index in range the fill never applies. -/
theorem takeK_eq_gather (a0 : FVec Ideal S100000x64 .f32) :
    takeK a0 i1 = Host.gather gather_S100000x64_S1600000x1_S1600000x64_1_0_n_n_0_1_164 a0 (wrapK i1) := by
  funext j
  unfold takeK
  rw [select_apply]
  have hm : broadcastInDim S1600000x64 ![0] bcast_S1600000_S1600000x64_0 (maskK (wrapK i1)) j = 1#1 := by
    unfold broadcastInDim
    exact maskK_one i1 hi _
  rw [hm, select_one]

end Take

/-- Row `r` of an index array in range is in range. -/
theorem srcK_range (a1 : IVec S2x1600000 32) (h : InRange a1) (e : S1600000.Idx) :
    0 ≤ (srcK a1 e).toInt ∧ (srcK a1 e).toInt < 100000 := by
  unfold srcK shapeCast extractStridedSlice
  exact h _

theorem tgtK_range (a1 : IVec S2x1600000 32) (h : InRange a1) (e : S1600000.Idx) :
    0 ≤ (tgtK a1 e).toInt ∧ (tgtK a1 e).toInt < 100000 := by
  unfold tgtK shapeCast extractStridedSlice
  exact h _

/-- With the index in range the take at the source indices is the plain gather at the wrapped source indices. -/
theorem takeK_src (a0 : FVec Ideal S100000x64 .f32) (a1 : IVec S2x1600000 32) (h : InRange a1) :
    takeK a0 (srcK a1) = Host.gather gather_S100000x64_S1600000x1_S1600000x64_1_0_n_n_0_1_164 a0 (wrapK (srcK a1)) :=
  takeK_eq_gather (srcK a1) (srcK_range a1 h) a0

/-- Likewise at the target indices. -/
theorem takeK_tgt (a0 : FVec Ideal S100000x64 .f32) (a1 : IVec S2x1600000 32) (h : InRange a1) :
    takeK a0 (tgtK a1) = Host.gather gather_S100000x64_S1600000x1_S1600000x64_1_0_n_n_0_1_164 a0 (wrapK (tgtK a1)) :=
  takeK_eq_gather (tgtK a1) (tgtK_range a1 h) a0

end Cert.KernelIdeal.Val

end
-- ==== Proof.RefH.lean ====
/-
  The reference's message array, index by index.  The reference joins the gathered source rows, the gathered target
  rows and the edge features into one 1600000 × 160 array, contracts it with each weight matrix (a plain sum over the
  160 joined features on the extended reals), adds the bias to every row, and multiplies the quotient spelling of the
  logistic of the first by the guarded softplus of the second.  Entry `(e, f)` is the message entry of edge `e`.
-/
import proofs.«419440_j11536282157551_1_alg».proof.Proof.RefRead
import proofs.«419440_j11536282157551_1_alg».proof.Proof.Spec
import proofs.«419440_j11536282157551_1_alg».proof.Proof.LibJoin3
import Idealize.ShloMosaic.Lib.ValueIdx
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP Cert.Spec
open Idealize.ShloMosaic Idealize.ShloMosaic.TcCoe Idealize.ShloMosaic.ValueIdx Idealize.SL.Sem

/-! ## Index arithmetic

The contraction of entry `(p, q)` reads the joined array along row `p` and the weight matrix down column `q`; the
bias of entry `(p, q)` is entry `q` of the bias vector. -/

theorem lidx19 (p : Fin 1600000) (q : Fin 64) (k : Fin 160) : lidx_main_v19 (ix2 p q) k = ix2 p k :=
  funext fun a => Fin.ext (by match a with | ⟨0, _⟩ => rfl | ⟨1, _⟩ => rfl)

theorem ridx19 (p : Fin 1600000) (q : Fin 64) (k : Fin 160) : ridx_main_v19 (ix2 p q) k = ix2 k q :=
  funext fun a => Fin.ext (by match a with | ⟨0, _⟩ => rfl | ⟨1, _⟩ => rfl)

theorem lidx29 (p : Fin 1600000) (q : Fin 64) (k : Fin 160) : lidx_main_v29 (ix2 p q) k = ix2 p k :=
  funext fun a => Fin.ext (by match a with | ⟨0, _⟩ => rfl | ⟨1, _⟩ => rfl)

theorem ridx29 (p : Fin 1600000) (q : Fin 64) (k : Fin 160) : ridx_main_v29 (ix2 p q) k = ix2 k q :=
  funext fun a => Fin.ext (by match a with | ⟨0, _⟩ => rfl | ⟨1, _⟩ => rfl)

theorem bidx21 (p : Fin 1600000) (q : Fin 64) : idx_main_v20 (idx_main_v21 (ix2 p q)) = ix1 q :=
  funext fun a => Fin.ext (by match a with | ⟨0, _⟩ => rfl)

theorem bidx31 (p : Fin 1600000) (q : Fin 64) : idx_main_v30 (idx_main_v31 (ix2 p q)) = ix1 q :=
  funext fun a => Fin.ext (by match a with | ⟨0, _⟩ => rfl)

/-! ## The joined row and the two affine maps -/

/-- Entry `(p, k)` of the joined array is entry `k` of edge `p`'s joined feature row. -/
theorem v18_apply (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (p : Fin 1600000) (k : Fin 160) :
    val_main_v18 (F := Ideal) x0 x1 x2 (ix2 p k) = zrow (val_main_v10 (F := Ideal) x0 x1) (val_main_v17 (F := Ideal) x0 x1) x2 p k := by
  unfold val_main_v18
  exact Cert.Lib.join3_apply (n := 1600000) (val_main_v10 (F := Ideal) x0 x1) (val_main_v17 (F := Ideal) x0 x1) x2 _ p k

/-- The first contraction at `(p, q)`: the joined row of edge `p` against column `q` of the first weight matrix. -/
theorem v19_at (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S160x64, .f32⟩ : BufTy).Contents (Elt Ideal)) (p : Fin 1600000) (q : Fin 64) :
    val_main_v19 (F := Ideal) x0 x1 x2 x3 (ix2 p q) = ∑ k : Fin 160, zrow (val_main_v10 (F := Ideal) x0 x1) (val_main_v17 (F := Ideal) x0 x1) x2 p k * x3 (ix2 k q) := by
  rw [val_main_v19_apply]
  refine Finset.sum_congr rfl fun k _ => ?_
  rw [lidx19, ridx19, v18_apply]

/-- The second contraction at `(p, q)`: the same row against column `q` of the second weight matrix. -/
theorem v29_at (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x5 : (⟨S160x64, .f32⟩ : BufTy).Contents (Elt Ideal)) (p : Fin 1600000) (q : Fin 64) :
    val_main_v29 (F := Ideal) x0 x1 x2 x5 (ix2 p q) = ∑ k : Fin 160, zrow (val_main_v10 (F := Ideal) x0 x1) (val_main_v17 (F := Ideal) x0 x1) x2 p k * x5 (ix2 k q) := by
  rw [val_main_v29_apply]
  refine Finset.sum_congr rfl fun k _ => ?_
  rw [lidx29, ridx29, v18_apply]

/-- The first bias spread over the rows, at `(p, q)`. -/
theorem v21_at (x4 : (⟨S64, .f32⟩ : BufTy).Contents (Elt Ideal)) (p : Fin 1600000) (q : Fin 64) : val_main_v21 (F := Ideal) x4 (ix2 p q) = x4 (ix1 q) := by
  rw [val_main_v21_apply, val_main_v20_apply, bidx21]

/-- The second bias spread over the rows, at `(p, q)`. -/
theorem v31_at (x6 : (⟨S64, .f32⟩ : BufTy).Contents (Elt Ideal)) (p : Fin 1600000) (q : Fin 64) : val_main_v31 (F := Ideal) x6 (ix2 p q) = x6 (ix1 q) := by
  rw [val_main_v31_apply, val_main_v30_apply, bidx31]

/-- The first pre-activation at `(p, q)`. -/
theorem v22_at (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S160x64, .f32⟩ : BufTy).Contents (Elt Ideal)) (x4 : (⟨S64, .f32⟩ : BufTy).Contents (Elt Ideal)) (p : Fin 1600000) (q : Fin 64) :
    val_main_v22 (F := Ideal) x0 x1 x2 x3 x4 (ix2 p q) = ∑ k : Fin 160, zrow (val_main_v10 (F := Ideal) x0 x1) (val_main_v17 (F := Ideal) x0 x1) x2 p k * x3 (ix2 k q) + x4 (ix1 q) := by
  rw [val_main_v22_apply, Ideal.addf_def, v19_at, v21_at]

/-- The second pre-activation at `(p, q)`. -/
theorem v32_at (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x5 : (⟨S160x64, .f32⟩ : BufTy).Contents (Elt Ideal)) (x6 : (⟨S64, .f32⟩ : BufTy).Contents (Elt Ideal)) (p : Fin 1600000) (q : Fin 64) :
    val_main_v32 (F := Ideal) x0 x1 x2 x5 x6 (ix2 p q) = ∑ k : Fin 160, zrow (val_main_v10 (F := Ideal) x0 x1) (val_main_v17 (F := Ideal) x0 x1) x2 p k * x5 (ix2 k q) + x6 (ix1 q) := by
  rw [val_main_v32_apply, Ideal.addf_def, v29_at, v31_at]

/-! ## The pointwise tail -/

/-- The quotient spelling of the logistic of the first pre-activation, at any entry. -/
theorem v28_tail (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S160x64, .f32⟩ : BufTy).Contents (Elt Ideal)) (x4 : (⟨S64, .f32⟩ : BufTy).Contents (Elt Ideal)) (i : S1600000x64.Idx) :
    val_main_v28 (F := Ideal) x0 x1 x2 x3 x4 i
      = Ideal.div (Ideal.ofBits .f32 0x3F800000#32)
          (Ideal.ofBits .f32 0x3F800000#32 + Ideal.exp (-(val_main_v22 (F := Ideal) x0 x1 x2 x3 x4 i))) := by
  simp only [val_main_v28_apply, val_main_v27_apply, val_main_cst_3_apply, val_main_v26_apply, val_main_v25_apply,
    val_main_cst_apply, val_main_v24_apply, val_main_v23_apply, Ideal.hostDivf_def, Ideal.addf_def,
    Ideal.hostUnary_exp_def, Ideal.hostNegf_def, Ideal.negf_def, Ideal.ofBits_def]

/-- The guarded softplus of the second pre-activation, at any entry. -/
theorem v33_tail (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x5 : (⟨S160x64, .f32⟩ : BufTy).Contents (Elt Ideal)) (x6 : (⟨S64, .f32⟩ : BufTy).Contents (Elt Ideal)) (i : S1600000x64.Idx) :
    val_main_v33 (F := Ideal) x0 x1 x2 x5 x6 i
      = Scalar.select
          (Ideal.cmp .une (val_main_v32 (F := Ideal) x0 x1 x2 x5 x6 i - Ideal.ofBits .f32 0x00000000#32)
            (val_main_v32 (F := Ideal) x0 x1 x2 x5 x6 i - Ideal.ofBits .f32 0x00000000#32))
          (val_main_v32 (F := Ideal) x0 x1 x2 x5 x6 i + Ideal.ofBits .f32 0x00000000#32)
          (max (val_main_v32 (F := Ideal) x0 x1 x2 x5 x6 i) (Ideal.ofBits .f32 0x00000000#32) +
            Ideal.log1p (Ideal.exp (-(max (val_main_v32 (F := Ideal) x0 x1 x2 x5 x6 i - Ideal.ofBits .f32 0x00000000#32)
              (-(val_main_v32 (F := Ideal) x0 x1 x2 x5 x6 i - Ideal.ofBits .f32 0x00000000#32)))))) := by
  simp only [val_main_v33_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, Ideal.cmpf_def, Ideal.addf_def, Ideal.subf_def,
    Ideal.maximumf_def, Ideal.hostUnary_log1p_def, Ideal.hostUnary_exp_def, Ideal.hostNegf_def, Ideal.negf_def,
    Ideal.hostAbsf_def, Ideal.absf_def, Ideal.ofBits_def]

/-- The reference's per-edge product of gates is the message array of its gathered rows, its edge features, the weight
    matrices and the biases, the biases read as one-row arrays. -/
theorem H_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S160x64, .f32⟩ : BufTy).Contents (Elt Ideal)) (x4 : (⟨S64, .f32⟩ : BufTy).Contents (Elt Ideal)) (x5 : (⟨S160x64, .f32⟩ : BufTy).Contents (Elt Ideal)) (x6 : (⟨S64, .f32⟩ : BufTy).Contents (Elt Ideal))
    (bf bs : (⟨2, ![1, 64]⟩ : Shape).Idx → EReal)
    (hbf : ∀ q : Fin 64, bf (ix2 0 q) = x4 (ix1 q)) (hbs : ∀ q : Fin 64, bs (ix2 0 q) = x6 (ix1 q)) :
    Hspec (n := 1600000) (val_main_v10 (F := Ideal) x0 x1) (val_main_v17 (F := Ideal) x0 x1) x2 x3 bf x5 bs
      = val_main_v34 (F := Ideal) x0 x1 x2 x3 x4 x5 x6 := by
  funext i
  obtain ⟨p, q, rfl⟩ : ∃ (p : Fin 1600000) (q : Fin 64), i = ix2 p q := ⟨i 0, i 1, eq_ix2 i⟩
  rw [val_main_v34_apply, Ideal.mulf_def, v28_tail, v33_tail, v22_at, v32_at, gate_reference]
  show gate (∑ k : Fin 160, zrow (val_main_v10 (F := Ideal) x0 x1) (val_main_v17 (F := Ideal) x0 x1) x2 p k * x3 (ix2 k q) + bf (ix2 0 q))
      (∑ k : Fin 160, zrow (val_main_v10 (F := Ideal) x0 x1) (val_main_v17 (F := Ideal) x0 x1) x2 p k * x5 (ix2 k q) + bs (ix2 0 q)) = _
  rw [hbf q, hbs q]

end Cert.ReferenceIdeal.RefVal

end
-- ==== Proof.RefOut.lean ====
/-
  The reference's result, index by index.  From the summed messages the reference forms the column mean and the
  column variance, spreads them, the scale and the shift down the rows, and computes
  `x + ((msg - mean) · rsqrt(var + ε) · γ + β)` entry by entry, with the same association as the kernel's body.
-/
import proofs.«419440_j11536282157551_1_alg».proof.Proof.RefRead
import proofs.«419440_j11536282157551_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.ReadP Cert.Spec
open Idealize.ShloMosaic Idealize.ShloMosaic.TcCoe Idealize.ShloMosaic.ValueIdx Idealize.SL.Sem

/-- The reference's result is the output array of its summed messages, the node features, and its column mean, column
    variance, scale and shift read as one-row arrays. -/
theorem OUT_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S160x64, .f32⟩ : BufTy).Contents (Elt Ideal)) (x4 : (⟨S64, .f32⟩ : BufTy).Contents (Elt Ideal)) (x5 : (⟨S160x64, .f32⟩ : BufTy).Contents (Elt Ideal)) (x6 : (⟨S64, .f32⟩ : BufTy).Contents (Elt Ideal)) (x7 x8 : (⟨S64, .f32⟩ : BufTy).Contents (Elt Ideal))
    (mean var gam bet : (⟨2, ![1, 64]⟩ : Shape).Idx → EReal)
    (hmean : ∀ q : Fin 64, mean (ix2 0 q) = val_main_v40 (F := Ideal) x0 x1 x2 x3 x4 x5 x6 (ix1 q))
    (hvar : ∀ q : Fin 64, var (ix2 0 q) = val_main_v47 (F := Ideal) x0 x1 x2 x3 x4 x5 x6 (ix1 q))
    (hgam : ∀ q : Fin 64, gam (ix2 0 q) = x7 (ix1 q)) (hbet : ∀ q : Fin 64, bet (ix2 0 q) = x8 (ix1 q)) :
    OUTspec (n := 100000) (val_main_v37 (F := Ideal) x0 x1 x2 x3 x4 x5 x6) x0 mean var gam bet
      = val_main_v63 (F := Ideal) x0 x1 x2 x3 x4 x5 x6 x7 x8 := by
  funext i
  obtain ⟨p, q, rfl⟩ : ∃ (p : Fin 100000) (q : Fin 64), i = ix2 p q := ⟨i 0, i 1, eq_ix2 i⟩
  -- a row array spread down the rows is read at row 0, and a one-row array made from a flat one at its column
  have r49 : idx_main_v49 (ix2 p q) = ix2 (0 : Fin 1) q :=
    funext fun a => Fin.ext (by match a with | ⟨0, _⟩ => rfl | ⟨1, _⟩ => rfl)
  have r55 : idx_main_v55 (ix2 p q) = ix2 (0 : Fin 1) q :=
    funext fun a => Fin.ext (by match a with | ⟨0, _⟩ => rfl | ⟨1, _⟩ => rfl)
  have r58 : idx_main_v58 (ix2 p q) = ix2 (0 : Fin 1) q :=
    funext fun a => Fin.ext (by match a with | ⟨0, _⟩ => rfl | ⟨1, _⟩ => rfl)
  have r61 : idx_main_v61 (ix2 p q) = ix2 (0 : Fin 1) q :=
    funext fun a => Fin.ext (by match a with | ⟨0, _⟩ => rfl | ⟨1, _⟩ => rfl)
  have c48 : idx_main_v48 (ix2 (0 : Fin 1) q) = ix1 q :=
    funext fun a => Fin.ext (by match a with | ⟨0, _⟩ => rfl)
  have c54 : idx_main_v54 (ix2 (0 : Fin 1) q) = ix1 q :=
    funext fun a => Fin.ext (by match a with | ⟨0, _⟩ => rfl)
  have c57 : idx_main_v57 (ix2 (0 : Fin 1) q) = ix1 q :=
    funext fun a => Fin.ext (by match a with | ⟨0, _⟩ => rfl)
  have c60 : idx_main_v60 (ix2 (0 : Fin 1) q) = ix1 q :=
    funext fun a => Fin.ext (by match a with | ⟨0, _⟩ => rfl)
  rw [val_main_v63_apply, val_main_v62_apply, val_main_v59_apply, val_main_v56_apply, val_main_v50_apply,
    val_main_v49_apply, r49, val_main_v48_apply, c48,
    val_main_v55_apply, r55, val_main_v54_apply, c54, val_main_v53_apply, val_main_v52_apply, val_main_v51_apply,
    val_main_cst_9_apply,
    val_main_v58_apply, r58, val_main_v57_apply, c57,
    val_main_v61_apply, r61, val_main_v60_apply, c60]
  show bn (x0 (ix2 p q)) (val_main_v37 (F := Ideal) x0 x1 x2 x3 x4 x5 x6 (ix2 p q)) (mean (ix2 0 q)) (var (ix2 0 q))
    (gam (ix2 0 q)) (bet (ix2 0 q)) = _
  rw [hmean, hvar, hgam, hbet]
  rfl

end Cert.ReferenceIdeal.RefVal

end
-- ==== Proof.KFinal.lean ====
/-
  The kernel program's result as the reference's stage function of the argument arrays.  The result array is region
  1's output array: the output array (`OUTspec`) of the summed messages, the node features and the four one-row
  arrays as region 1 finds them.  The host operations between the regions make those from region 0's output array by
  the very operations the reference applies to its own message array (the sum into node rows by source index, the
  column mean, the column variance), so it is enough that region 0's output array is the reference's message array.
  It is the message array (`Hspec`) of the taken rows, the edge features, the weights and the biases; under the
  precondition the taken rows are the gathered rows, which are the reference's.
-/
import proofs.«419440_j11536282157551_1_alg».proof.Proof.ValueRun
import proofs.«419440_j11536282157551_1_alg».proof.Proof.Blocks0
import proofs.«419440_j11536282157551_1_alg».proof.Proof.Blocks1
import proofs.«419440_j11536282157551_1_alg».proof.Proof.HostVals
import proofs.«419440_j11536282157551_1_alg».proof.Proof.PreTake
import proofs.«419440_j11536282157551_1_alg».proof.Proof.RefH
import proofs.«419440_j11536282157551_1_alg».proof.Proof.RefOut

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

/-- A 64-vector reshaped to one row reads, at `(0, q)`, the vector at `q`. -/
theorem cast_row (x : FVec Ideal S64 .f32) (q : Fin 64) :
    (shapeCast S1x64 x shapeCasts_S64_S1x64) (ix2 0 q) = x (ix1 q) :=
  shapeCast_apply x shapeCasts_S64_S1x64 (ix2 0 q) (ix1 q)
    (by rewrite [Shape.rowMajor_val_one, Shape.rowMajor_val_two]; show q.val = 0 * 64 + q.val; omega)

section
variable [Cert.Pre_finite_inputs.Facts] (m : (ℓ : Loc nD τ sig) → Buf (Elt Ideal) ℓ) (ρ : Dev nD → PrngReg)

/-- Under the precondition region 0 leaves the reference's message array. -/
theorem region0_eq (h : Cert.Pre_KernelIdeal m) (c : Dev nD) :
    (dat0 (V4 m ρ) c).arrAt 7 cfg0.N = Cert.ReferenceIdeal.ReadP.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hr := inRange_of_pre m h c
  rw [final0 (V4 m ρ) c, V4_v4, V4_v5, V4_arg2, V4_arg3, V4_v6, V4_arg5, V4_v7, takeK_src _ _ hr, takeK_tgt _ _ hr]
  exact Cert.ReferenceIdeal.RefVal.H_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) _ _ (cast_row _) (cast_row _)

/-- So the host operations after it leave the reference's summed messages. -/
theorem messages_eq (h : Cert.Pre_KernelIdeal m) (c : Dev nD) :
    V6 m ρ c main_v11 = Cert.ReferenceIdeal.ReadP.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [V6_v11, region0_eq m ρ h c]
  rfl
end

/-- Under the precondition the program's result array is the reference's last stage of the argument arrays. -/
theorem result_eq [Cert.Pre_finite_inputs.Facts] (m : (ℓ : Loc nD τ sig) → Buf (Elt Ideal) ℓ) (ρ : Dev nD → PrngReg)
    (h : Cert.Pre_KernelIdeal m) (c : Dev nD) :
    W7 m ρ c (Proc.devRef .tc main_v26)
      = Cert.ReferenceIdeal.ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ValueRun.W7_result m ρ c, final1 (V6 m ρ) c, V6_v22, V6_v23, V6_v24, V6_v25, V6_arg0, messages_eq m ρ h c]
  refine Cert.ReferenceIdeal.RefVal.OUT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) _ _ _ _ (fun q => ?_) (fun q => ?_) (fun q => cast_row _ q) (fun q => cast_row _ q)
  · rw [cast_row]; rfl
  · rw [cast_row]; rfl

end Cert.KernelIdeal.Val

end
-- ==== Proof.lean ====
/-
  Both programs compute, for a graph of 100000 nodes and 1600000 edges, one round of gated message passing followed
  by a batch normalisation with a residual: per edge the logistic of one affine map of the joined source, target and
  edge features times the softplus of another; the messages summed into their source nodes; each node feature plus its
  normalised, scaled and shifted message.  The kernel program does the per-edge part blockwise in one grid and the
  normalisation blockwise in another; the reference does both on whole arrays.  On the extended reals the two agree
  entry by entry as soon as every edge index names a node (the precondition's added conjunct): then the kernel
  program's take with a fill is the reference's gather.

  The three frames are the generated ones (the reference's is its run with the result dropped).  For the value claim
  the kernel program's run is stated with its result array at the reference's last stage function of the arguments
  (`Val.result_eq`), the reference's run is the generated one read through its stages, and the two memories agree on
  the arguments.
-/
import proofs.«419440_j11536282157551_1_alg».proof.Defs
import proofs.«419440_j11536282157551_1_alg».proof.Proof.Gen.Kernel
import proofs.«419440_j11536282157551_1_alg».proof.Proof.Gen.Kernel.Frame
import proofs.«419440_j11536282157551_1_alg».proof.Proof.Gen.KernelIdeal
import proofs.«419440_j11536282157551_1_alg».proof.Proof.Gen.KernelIdeal.Frame
import proofs.«419440_j11536282157551_1_alg».proof.Proof.Gen.ReferenceIdeal
import proofs.«419440_j11536282157551_1_alg».proof.Proof.Gen.Pre_finite_inputs
import proofs.«419440_j11536282157551_1_alg».proof.Proof.RefRun
import proofs.«419440_j11536282157551_1_alg».proof.Proof.RefRead
import proofs.«419440_j11536282157551_1_alg».proof.Proof.ValueRun
import proofs.«419440_j11536282157551_1_alg».proof.Proof.KFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal result arrays: both at the reference's last stage of the arguments. -/
theorem algebraic : Cert.algebraic_KernelIdeal_ReferenceIdeal := by
  intro m ρ m' ρ' hpre hagree
  refine ⟨fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result_eq m ρ hpre c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v63_eq]
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
